-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x1250000 32) (main_arg2 : FVec F S64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x1250000 : Shape := ⟨2, ![2, 1250000]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S1250000x2 : Shape := ⟨2, ![1250000, 2]⟩
abbrev S1250000x64 : Shape := ⟨2, ![1250000, 64]⟩
abbrev S5000x64 : Shape := ⟨2, ![5000, 64]⟩
abbrev S5000x2 : Shape := ⟨2, ![5000, 2]⟩
abbrev S5000x1 : Shape := ⟨2, ![5000, 1]⟩
abbrev S1x64 : Shape := ⟨2, ![1, 64]⟩

abbrev nBuf : Space → Nat
  | .hbm => 90
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .f32⟩
  | .hbm, ⟨9, _⟩ => ⟨S50000, .f32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .f32⟩
  | .hbm, ⟨14, _⟩ => ⟨S1250000, .f32⟩
  | .hbm, ⟨15, _⟩ => ⟨S_, .f32⟩
  | .hbm, ⟨16, _⟩ => ⟨S50000, .f32⟩
  | .hbm, ⟨17, _⟩ => ⟨S1250000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000, .f32⟩
  | .hbm, ⟨31, _⟩ => ⟨S_, .f32⟩
  | .hbm, ⟨32, _⟩ => ⟨S50000, .f32⟩
  | .hbm, ⟨33, _⟩ => ⟨S1250000x1, .i32⟩
  | .hbm, ⟨34, _⟩ => ⟨S50000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S_, .f32⟩
  | .hbm, ⟨45, _⟩ => ⟨S50000, .f32⟩
  | .hbm, ⟨46, _⟩ => ⟨S1250000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S_, .i32⟩
  | .hbm, ⟨56, _⟩ => ⟨S1250000, .i32⟩
  | .hbm, ⟨57, _⟩ => ⟨S1250000, .i1⟩
  | .hbm, ⟨58, _⟩ => ⟨S_, .i32⟩
  | .hbm, ⟨59, _⟩ => ⟨S1250000, .i32⟩
  | .hbm, ⟨60, _⟩ => ⟨S1250000, .i32⟩
  | .hbm, ⟨61, _⟩ => ⟨S1250000, .i32⟩
  | .hbm, ⟨62, _⟩ => ⟨S1250000x1, .i32⟩
  | .hbm, ⟨63, _⟩ => ⟨S1250000, .f32⟩
  | .hbm, ⟨64, _⟩ => ⟨S_, .i32⟩
  | .hbm, ⟨65, _⟩ => ⟨S1250000, .i32⟩
  | .hbm, ⟨66, _⟩ => ⟨S1250000, .i1⟩
  | .hbm, ⟨67, _⟩ => ⟨S_, .i32⟩
  | .hbm, ⟨68, _⟩ => ⟨S1250000, .i32⟩
  | .hbm, ⟨69, _⟩ => ⟨S1250000, .i32⟩
  | .hbm, ⟨70, _⟩ => ⟨S1250000, .i32⟩
  | .hbm, ⟨71, _⟩ => ⟨S1250000x1, .i32⟩
  | .hbm, ⟨72, _⟩ => ⟨S1250000, .f32⟩
  | .hbm, ⟨73, _⟩ => ⟨S_, .f32⟩
  | .hbm, ⟨74, _⟩ => ⟨S1250000, .f32⟩
  | .hbm, ⟨75, _⟩ => ⟨S1250000, .f32⟩
  | .hbm, ⟨76, _⟩ => ⟨S1250000, .f32⟩
  | .hbm, ⟨77, _⟩ => ⟨S1250000x1, .f32⟩
  | .hbm, ⟨78, _⟩ => ⟨S1250000x1, .f32⟩
  | .hbm, ⟨79, _⟩ => ⟨S1250000x2, .f32⟩
  | .hbm, ⟨80, _⟩ => ⟨S_, .i32⟩
  | .hbm, ⟨81, _⟩ => ⟨S1250000, .i32⟩
  | .hbm, ⟨82, _⟩ => ⟨S1250000, .i1⟩
  | .hbm, ⟨83, _⟩ => ⟨S_, .i32⟩
  | .hbm, ⟨84, _⟩ => ⟨S1250000, .i32⟩
  | .hbm, ⟨85, _⟩ => ⟨S1250000, .i32⟩
  | .hbm, ⟨86, _⟩ => ⟨S1250000, .i32⟩
  | .hbm, ⟨87, _⟩ => ⟨S1250000x1, .i32⟩
  | .hbm, ⟨88, _⟩ => ⟨S1250000x64, .f32⟩
  | .hbm, ⟨89, _⟩ => ⟨S1250000x64, .f32⟩
  | .local _ .vmem, ⟨0, _⟩ => ⟨S5000x64, .f32⟩
  | .local _ .vmem, ⟨1, _⟩ => ⟨S5000x64, .f32⟩
  | .local _ .vmem, ⟨2, _⟩ => ⟨S5000x2, .f32⟩
  | .local _ .vmem, ⟨3, _⟩ => ⟨S5000x2, .f32⟩
  | .local _ .vmem, ⟨4, _⟩ => ⟨S64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_15 : Ref sig .tc := ⟨.hbm, 80, rfl⟩
abbrev main_v59 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  reducesTo_S50000x64_S50000_d1 : S50000x64.ReducesTo [1] S50000
  h_S_ : 0 < S_.numel
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  concatenates_S1250000x1_S1250000x1_S1250000x2_d1 : Shape.Concatenates [S1250000x1, S1250000x1] S1250000x2 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x2_S5000x1_0_1 : ∀ a, (![0, 1] : Fin 2 → Nat) a + S5000x1.size a ≤ S5000x2.size a
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  gather_S50000x64_S1250000x1_S1250000x64_1_0_n_n_0_1_164_wf : GatherDims.WF S50000x64 S1250000x1 S1250000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S1250000x2.size a
  hwx0_1 : ∀ i : grid0.Coords, EltTy.bits .f32 = 32 ∨ (Rect.block (s := S1250000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S1250000x64.size a
  hwx0_4 : ∀ i : grid0.Coords, EltTy.bits .f32 = 32 ∨ (Rect.block (s := S1250000x64) S5000x64.size (cc0_transform_4 i) (hinb0_4 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf

abbrev win0_0 : Pipeline.Window sig grid0 :=
  Pipeline.Window.ofSpec (Memref.whole main_v65) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S1250000, .f32⟩
  | .hbm, ⟨19, _⟩ => ⟨S_, .f32⟩
  | .hbm, ⟨20, _⟩ => ⟨S50000, .f32⟩
  | .hbm, ⟨21, _⟩ => ⟨S1250000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x64, .f32⟩
  | .hbm, ⟨29, _⟩ => ⟨S1250000x1, .i32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x1, .f32⟩
  | .hbm, ⟨48, _⟩ => ⟨S1250000x64, .f32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S50000x64, .f32⟩
  | .hbm, ⟨53, _⟩ => ⟨S1250000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S1250000x1, .f32⟩
  | .hbm, ⟨72, _⟩ => ⟨S_, .f32⟩
  | .hbm, ⟨73, _⟩ => ⟨S1250000x1, .f32⟩
  | .hbm, ⟨74, _⟩ => ⟨S1250000x1, .f32⟩
  | .hbm, ⟨75, _⟩ => ⟨S1250000x1, .f32⟩
  | .hbm, ⟨76, _⟩ => ⟨S1250000x64, .f32⟩
  | .hbm, ⟨77, _⟩ => ⟨S1250000x64, .f32⟩
  | .hbm, ⟨78, _⟩ => ⟨S1x64, .f32⟩
  | .hbm, ⟨79, _⟩ => ⟨S1250000x64, .f32⟩
  | .hbm, ⟨80, _⟩ => ⟨S1250000x64, .f32⟩
  | .hbm, ⟨81, _⟩ => ⟨S1x64, .f32⟩
  | .hbm, ⟨82, _⟩ => ⟨S1250000x64, .f32⟩
  | .hbm, ⟨83, _⟩ => ⟨S1250000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S1250000x1_S1250000x64_0_1 : S1250000x1.BroadcastsInDim S1250000x64 (![0, 1] : Fin 2 → Fin S1250000x64.rank)
  bcast_S_S1250000x1 : S_.BroadcastsInDim S1250000x1 (![] : Fin 0 → Fin S1250000x1.rank)
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  gather_S50000x64_S1250000x1_S1250000x64_1_0_n_n_0_1_164_wf : GatherDims.WF S50000x64 S1250000x1 S1250000x64 [1] [0] [] [0] [] 1 ![1, 64]
  scatter_S50000_S1250000x1_S1250000_n_0_0_1_wf : ScatterDims.WF S50000 S1250000x1 S1250000 [] [0] [0] 1
  scatter_S50000x64_S1250000x1_S1250000x64_1_0_0_1_wf : ScatterDims.WF S50000x64 S1250000x1 S1250000x64 [1] [0] [0] 1
  gather_S50000x1_S1250000x1_S1250000x1_1_0_n_n_0_1_11_wf : GatherDims.WF S50000x1 S1250000x1 S1250000x1 [1] [0] [] [0] [] 1 ![1, 1]

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def gather_S50000x1_S1250000x1_S1250000x1_1_0_n_n_0_1_11 : GatherDims S50000x1 S1250000x1 S1250000x1 where
  offsetDims := [1]
  collapsedSliceDims := [0]
  operandBatchingDims := []
  startIndicesBatchingDims := []
  startIndexMap := [0]
  indexVectorDim := 1
  sliceSizes := ![1, 1]
  wf := gather_S50000x1_S1250000x1_S1250000x1_1_0_n_n_0_1_11_wf

class Facts : Prop extends Facts₀ where

variable [Facts]
-- ==== Proof.Spec.lean ====
/-
  Neighbour normalisation over an edge list: what both programs compute, entry by entry.

  A graph has 50000 nodes with 64 features each (the table `x`) and 1250000 edges (the two rows of `ei`: a row word and a
  column word per edge). Edge `e` reads the features of the node its column word names, and the mean and variance of the
  node its row word names; a node's mean and variance are taken over all the edges whose row word is that node, and over all
  64 features. A gather reads the node `node w` (the word normalised as jnp does, read signed, clamped into range); a
  scatter adds edge `e` onto node `n` exactly when the row word, read signed and not normalised, is `n`.

  The kernel side (`k…`) first sums each node's features and their squares, then sums those per-node numbers over a node's
  edges; the reference side (`r…`) sums feature by feature over the edges, centres, squares and sums again. Both are written
  here on the extended reals exactly as the operations compute them, literal words kept as words.
-/
import Idealize.ShloMosaic.PureOps.Ideal
import Idealize.ShloMosaic.Lib.ValueIdx

noncomputable section

open scoped BigOperators

namespace Cert.NbrNorm

open Idealize.ShloMosaic Idealize.ShloMosaic.ValueIdx

/-- The feature table [50000, 64] and the edge list [2, 1250000] as the programs hold them. -/
abbrev XTab : Type := (⟨2, ![50000, 64]⟩ : Shape).Idx → EReal
abbrev ETab : Type := (⟨2, ![2, 1250000]⟩ : Shape).Idx → BitVec 32

/-- jnp's index normalisation: 50000 added to a word that reads negative. -/
def nrm (w : BitVec 32) : BitVec 32 := Scalar.select (IntOp.cmpi .slt w 0#32) (IntOp.addi w 50000#32) w

/-- The node a gather reads for the word `w`: normalised, read signed, clamped into [0, 49999]. -/
def node (w : BitVec 32) : Fin 50000 := ⟨min (nrm w).toInt.toNat (50000 - 1), by omega⟩

/-- The four literals of both programs, as extended reals: 0, 1, 64 and the variance's epsilon. -/
def zero : EReal := Ideal.ofBits .f32 0x00000000#32
def one : EReal := Ideal.ofBits .f32 0x3F800000#32
def c64 : EReal := Ideal.ofBits .f32 0x42800000#32
def eps : EReal := Ideal.ofBits .f32 0x3727C5AC#32

variable (x : XTab) (ei : ETab)

/-- Edge `e`'s row word and column word. -/
def rowW (e : Fin 1250000) : BitVec 32 := ei (ix2 (0 : Fin 2) e)
def colW (e : Fin 1250000) : BitVec 32 := ei (ix2 (1 : Fin 2) e)

/-- The edges a scatter adds onto node `n`. -/
def seg (n : Fin 50000) : Finset (Fin 1250000) :=
  Finset.univ.filter fun e => (rowW ei e).toInt = (n.val : Int)

/-- The gathered feature of edge `e`: feature `f` of the node its column word names. -/
def xc (e : Fin 1250000) (f : Fin 64) : EReal := x (ix2 (node (colW ei e)) f)

/-- A node's edge count, and the count clamped below at one. -/
def cnt (n : Fin 50000) : EReal := zero + ∑ _e ∈ seg ei n, one
def den (n : Fin 50000) : EReal := max (cnt ei n) one

/-! ## The kernel side -/

/-- A node's feature sum and sum of squared features. -/
def kRowsum (n : Fin 50000) : EReal := zero + ∑ f : Fin 64, x (ix2 n f)
def kRowsq (n : Fin 50000) : EReal := zero + ∑ f : Fin 64, x (ix2 n f) * x (ix2 n f)

/-- Those per-node numbers summed over the edges of node `n`, each edge contributing its column node's. -/
def kS1 (n : Fin 50000) : EReal := zero + ∑ e ∈ seg ei n, kRowsum x (node (colW ei e))
def kS2 (n : Fin 50000) : EReal := zero + ∑ e ∈ seg ei n, kRowsq x (node (colW ei e))

/-- 64 times the clamped count; the mean; the variance as the mean square less mean times sum. -/
def kFden (n : Fin 50000) : EReal := c64 * den ei n
def kMean (n : Fin 50000) : EReal := Ideal.div (kS1 x ei n) (kFden ei n)
def kVar (n : Fin 50000) : EReal := Ideal.div (kS2 x ei n - kMean x ei n * kS1 x ei n) (kFden ei n)

/-- The two per-edge statistics the kernel is handed: the row node's mean and reciprocal standard deviation. -/
def kStat0 (e : Fin 1250000) : EReal := kMean x ei (node (rowW ei e))
def kStat1 (e : Fin 1250000) : EReal := Ideal.rsqrt (kVar x ei (node (rowW ei e)) + eps)

/-- The kernel's normalised entry before the affine map. -/
def kQ (e : Fin 1250000) (f : Fin 64) : EReal := (xc x ei e f - kStat0 x ei e) * kStat1 x ei e

/-! ## The reference side -/

/-- Feature `f` summed over node `n`'s edges, its mean over the clamped count, and the mean of those over the features. -/
def rSum (n : Fin 50000) (f : Fin 64) : EReal := zero + ∑ e ∈ seg ei n, xc x ei e f
def rMeanNF (n : Fin 50000) (f : Fin 64) : EReal := Ideal.div (rSum x ei n f) (den ei n)
def rMean (n : Fin 50000) : EReal := Ideal.div (zero + ∑ f : Fin 64, rMeanNF x ei n f) c64

/-- The centred entry, its square summed over a node's edges, and the variance. -/
def rDiff (e : Fin 1250000) (f : Fin 64) : EReal := xc x ei e f - rMean x ei (node (rowW ei e))
def rSq (n : Fin 50000) (f : Fin 64) : EReal := zero + ∑ e ∈ seg ei n, rDiff x ei e f * rDiff x ei e f
def rVarNF (n : Fin 50000) (f : Fin 64) : EReal := Ideal.div (rSq x ei n f) (den ei n)
def rVar (n : Fin 50000) : EReal := Ideal.div (zero + ∑ f : Fin 64, rVarNF x ei n f) c64

/-- The reference's normalised entry before the affine map. -/
def rQ (e : Fin 1250000) (f : Fin 64) : EReal :=
  Ideal.div (rDiff x ei e f) (Ideal.sqrt (rVar x ei (node (rowW ei e)) + eps))

end Cert.NbrNorm

end
-- ==== Proof.RealAlg.lean ====
/-
  The mean and variance of a finite family of 64-feature rows, two ways, over the reals.

  `S` is a finite set of edges and `Y e f` the feature `f` edge `e` carries. The count of `S` is clamped below at one.
  One way sums each row over its features first and the rows afterwards, and takes the variance as the mean square less
  the mean times the sum; the other sums feature by feature, divides by the clamped count, and averages over the features,
  centring before it squares. When `S` is empty every sum is zero; otherwise the clamped count is the count, and the two
  agree by expanding the square: sum (y - μ)² = sum y² - 2 μ sum y + 64 |S| μ², with 64 |S| μ = sum y.
-/
import Mathlib.Algebra.BigOperators.Field
import Mathlib.Algebra.Order.BigOperators.Ring.Finset
import Mathlib.Data.Real.Basic
import Mathlib.Tactic.Ring
import Mathlib.Tactic.FieldSimp
import Mathlib.Tactic.Linarith
import Mathlib.Tactic.Positivity
import Mathlib.Tactic.LinearCombination
import Mathlib.Tactic.NormNum
import Mathlib.Tactic.Push

noncomputable section

open scoped BigOperators

namespace Cert.NbrNorm.RealAlg

variable {ι : Type*} (S : Finset ι) (Y : ι → Fin 64 → ℝ)

/-- The count of `S` as a sum of ones, and the count clamped below at one. -/
def cntR : ℝ := ∑ _e ∈ S, (1 : ℝ)
def denR : ℝ := max (cntR S) 1

/-- All features of all edges summed, and their squares. -/
def tot : ℝ := ∑ e ∈ S, ∑ f : Fin 64, Y e f
def totSq : ℝ := ∑ e ∈ S, ∑ f : Fin 64, Y e f * Y e f

/-- Rows first: the mean, and the variance as the mean square less mean times sum. -/
def meanK : ℝ := tot S Y / (64 * denR S)
def varK : ℝ := (totSq S Y - meanK S Y * tot S Y) / (64 * denR S)

/-- Features first: per-feature means averaged, and centred squares averaged the same way. -/
def meanR : ℝ := (∑ f : Fin 64, (∑ e ∈ S, Y e f) / denR S) / 64
def varR (μ : ℝ) : ℝ := (∑ f : Fin 64, (∑ e ∈ S, (Y e f - μ) * (Y e f - μ)) / denR S) / 64

theorem denR_pos : 0 < denR S := lt_of_lt_of_le one_pos (le_max_right _ _)

/-- Both means are the grand total over 64 times the clamped count: the two sums commute. -/
theorem meanR_eq : meanR S Y = meanK S Y := by
  unfold meanR meanK tot
  rw [← Finset.sum_div, Finset.sum_comm, div_div, mul_comm (denR S) 64]

/-- 64 times the count times the mean is the grand total: with no edge both are zero, and with one or more the clamped
    count is the count. -/
theorem count_mul_mean : 64 * cntR S * meanK S Y = tot S Y := by
  rcases S.eq_empty_or_nonempty with h | h
  · subst h; simp [cntR, tot]
  · have hc : (1 : ℝ) ≤ cntR S := by
      unfold cntR
      rw [Finset.sum_const, nsmul_eq_mul, mul_one]
      exact Nat.one_le_cast.mpr (Finset.card_pos.mpr h)
    have hd : denR S = cntR S := max_eq_left hc
    have hc0 : cntR S ≠ 0 := ne_of_gt (lt_of_lt_of_le one_pos hc)
    unfold meanK
    rw [hd]
    field_simp

/-- The centred squares of one feature, expanded around any μ. -/
theorem centred_sq (μ : ℝ) (f : Fin 64) :
    ∑ e ∈ S, (Y e f - μ) * (Y e f - μ)
      = ∑ e ∈ S, Y e f * Y e f - 2 * μ * ∑ e ∈ S, Y e f + cntR S * (μ * μ) := by
  calc ∑ e ∈ S, (Y e f - μ) * (Y e f - μ)
      = ∑ e ∈ S, (Y e f * Y e f - 2 * μ * Y e f + 1 * (μ * μ)) := Finset.sum_congr rfl (fun e _ => by ring)
    _ = _ := by
      rw [Finset.sum_add_distrib, Finset.sum_sub_distrib, ← Finset.mul_sum, ← Finset.sum_mul]
      rfl

/-- Centring at the mean, the cross term and the constant term collapse to one mean-times-total. -/
theorem varR_eq : varR S Y (meanK S Y) = varK S Y := by
  have hk := count_mul_mean S Y
  unfold varR varK
  rw [← Finset.sum_div, div_div, mul_comm (denR S) 64]
  congr 1
  have e1 : ∑ f : Fin 64, ∑ e ∈ S, Y e f * Y e f = totSq S Y := by unfold totSq; exact Finset.sum_comm
  have e2 : ∑ f : Fin 64, ∑ e ∈ S, Y e f = tot S Y := by unfold tot; exact Finset.sum_comm
  rw [Finset.sum_congr rfl (fun f _ => centred_sq S Y (meanK S Y) f), Finset.sum_add_distrib, Finset.sum_sub_distrib,
    ← Finset.mul_sum, Finset.sum_const, Finset.card_univ, Fintype.card_fin, nsmul_eq_mul, e1, e2]
  push_cast
  linear_combination (meanK S Y) * hk

/-- A mean of sums of squares over a positive count is not negative. -/
theorem varR_nonneg (μ : ℝ) : 0 ≤ varR S Y μ :=
  div_nonneg (Finset.sum_nonneg fun f _ => div_nonneg (Finset.sum_nonneg fun e _ => mul_self_nonneg _) (denR_pos S).le)
    (by norm_num)

end Cert.NbrNorm.RealAlg

end
-- ==== Proof.Lift.lean ====
/-
  Over finite inputs the two normalised entries agree on the extended reals.

  When every entry of the feature table is a real number, every quantity of the specification is the image of a real
  number: the literals are 0, 1, 64 and a positive epsilon, a finite sum of reals is a real, and a division by a nonzero
  real is a real division. So both sides reduce to the real mean and variance of a node's edges, taken rows first on one
  side and features first on the other, and those agree over the reals. One fact about the edge list is needed: an edge
  that is added onto node `n` has a row word that reads `n`, a number in range and not negative, so the gather's
  normalisation and clamp leave it alone and the centred entry of such an edge is centred at the mean of node `n` itself.
  At the end a difference divided by the square root of a positive real is that difference times the reciprocal root.
-/
import proofs.«157844_j10153302687998_1_alg».proof.Proof.Spec
import proofs.«157844_j10153302687998_1_alg».proof.Proof.RealAlg
import Idealize.ShloMosaic.PureOps.Ideal
import Mathlib.Data.EReal.Basic
import Mathlib.Data.EReal.Operations
import Mathlib.Data.EReal.Inv
import Mathlib.Analysis.SpecialFunctions.Pow.Real
import Mathlib.Tactic.NormNum
import Mathlib.Tactic.Linarith
import Mathlib.Tactic.Positivity

noncomputable section

open scoped BigOperators

namespace Cert.NbrNorm

open Idealize.ShloMosaic Idealize.ShloMosaic.ValueIdx
open Cert.NbrNorm.RealAlg

/-! ## The four literal words -/

theorem zero_eq : zero = 0 := by
  simp [zero, Ideal.ofBits, Ideal.ieee]

theorem one_eq : one = ((1 : ℝ) : EReal) := by
  simp [one, Ideal.ofBits, Ideal.ieee, -EReal.coe_mul]; norm_num

theorem c64_eq : c64 = ((64 : ℝ) : EReal) := by
  simp [c64, Ideal.ofBits, Ideal.ieee, -EReal.coe_mul]; norm_num

/-- The epsilon word has sign 0, exponent 110 and fraction 2606508: the positive real 10995116 / 2^40. -/
theorem eps_eq : ∃ r : ℝ, 0 < r ∧ eps = (r : EReal) := by
  refine ⟨10995116 * (2 ^ 40)⁻¹, by positivity, ?_⟩
  simp [eps, Ideal.ofBits, Ideal.ieee, -EReal.coe_mul]

/-! ## Real arithmetic inside the extended reals -/

/-- A finite sum of reals, summed in the extended reals, is the real sum. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The larger of two reals is the larger of their images. -/
theorem coe_max (a b : ℝ) : max (a : EReal) (b : EReal) = ((max a b : ℝ) : EReal) :=
  (EReal.coe_strictMono.monotone.map_max).symm

/-- A real divided by a nonzero real. -/
theorem div_coe_coe (a : ℝ) {b : ℝ} (hb : b ≠ 0) :
    Ideal.div (a : EReal) (b : EReal) = ((a / b : ℝ) : EReal) := by
  rw [Ideal.div_coe hb, ← EReal.coe_mul, mul_one_div]

/-! ## The one fact about the edge list -/

/-- A word that does not read negative is its own normalisation. -/
theorem nrm_of_nonneg (w : BitVec 32) (h : 0 ≤ w.toInt) : nrm w = w := by
  have hs : w.slt 0#32 = false := by
    simp only [BitVec.slt, BitVec.toInt_zero, decide_eq_false_iff_not, not_lt]
    exact h
  simp [nrm, Scalar.select, IntOp.cmpi, hs]

/-- An edge added onto node `n` gathers node `n` through its row word. -/
theorem node_row (ei : ETab) (n : Fin 50000) (e : Fin 1250000) (he : e ∈ seg ei n) :
    node (rowW ei e) = n := by
  have h : (rowW ei e).toInt = (n.val : Int) := by
    simpa [seg] using he
  have hn : nrm (rowW ei e) = rowW ei e := nrm_of_nonneg _ (by rw [h]; exact Int.natCast_nonneg _)
  apply Fin.ext
  show min (nrm (rowW ei e)).toInt.toNat (50000 - 1) = n.val
  rw [hn, h, Int.toNat_natCast]
  have := n.isLt
  omega

/-! ## Every quantity of the specification is a real number -/

/-- A table of reals read as a table of extended reals. -/
def up (X : (⟨2, ![50000, 64]⟩ : Shape).Idx → ℝ) : XTab := fun i => ((X i : ℝ) : EReal)

/-- The real feature `f` that edge `e` carries. -/
def Yr (X : (⟨2, ![50000, 64]⟩ : Shape).Idx → ℝ) (ei : ETab) (e : Fin 1250000) (f : Fin 64) : ℝ :=
  X (ix2 (node (colW ei e)) f)

variable (X : (⟨2, ![50000, 64]⟩ : Shape).Idx → ℝ) (ei : ETab)

theorem cnt_eq (n : Fin 50000) : cnt ei n = ((cntR (seg ei n) : ℝ) : EReal) := by
  rw [cnt, zero_eq, zero_add, one_eq]
  exact coe_sum _ (fun _ => (1 : ℝ))

theorem den_eq (n : Fin 50000) : den ei n = ((denR (seg ei n) : ℝ) : EReal) := by
  rw [den, cnt_eq, one_eq, coe_max]; rfl

theorem kFden_eq (n : Fin 50000) : kFden ei n = ((64 * denR (seg ei n) : ℝ) : EReal) := by
  rw [kFden, c64_eq, den_eq, ← EReal.coe_mul]

theorem fden_ne (n : Fin 50000) : (64 * denR (seg ei n) : ℝ) ≠ 0 := by
  have := denR_pos (seg ei n)
  positivity

theorem kRowsum_eq (n' : Fin 50000) :
    kRowsum (up X) n' = ((∑ f : Fin 64, X (ix2 n' f) : ℝ) : EReal) := by
  rw [kRowsum, zero_eq, zero_add]
  exact coe_sum _ (fun f => X (ix2 n' f))

theorem kRowsq_eq (n' : Fin 50000) :
    kRowsq (up X) n' = ((∑ f : Fin 64, X (ix2 n' f) * X (ix2 n' f) : ℝ) : EReal) := by
  rw [kRowsq, zero_eq, zero_add, ← coe_sum]
  refine Finset.sum_congr rfl fun f _ => ?_
  exact (EReal.coe_mul _ _).symm

theorem kS1_eq (n : Fin 50000) : kS1 (up X) ei n = ((tot (seg ei n) (Yr X ei) : ℝ) : EReal) := by
  rw [kS1, zero_eq, zero_add, tot, ← coe_sum]
  refine Finset.sum_congr rfl fun e _ => ?_
  exact kRowsum_eq X _

theorem kS2_eq (n : Fin 50000) : kS2 (up X) ei n = ((totSq (seg ei n) (Yr X ei) : ℝ) : EReal) := by
  rw [kS2, zero_eq, zero_add, totSq, ← coe_sum]
  refine Finset.sum_congr rfl fun e _ => ?_
  exact kRowsq_eq X _

theorem kMean_eq (n : Fin 50000) : kMean (up X) ei n = ((meanK (seg ei n) (Yr X ei) : ℝ) : EReal) := by
  rw [kMean, kS1_eq, kFden_eq, div_coe_coe _ (fden_ne ei n)]; rfl

theorem kVar_eq (n : Fin 50000) : kVar (up X) ei n = ((varK (seg ei n) (Yr X ei) : ℝ) : EReal) := by
  rw [kVar, kS2_eq, kMean_eq, kS1_eq, kFden_eq, ← EReal.coe_mul, ← EReal.coe_sub,
    div_coe_coe _ (fden_ne ei n)]; rfl

theorem xc_eq (e : Fin 1250000) (f : Fin 64) : xc (up X) ei e f = ((Yr X ei e f : ℝ) : EReal) := rfl

theorem rSum_eq (n : Fin 50000) (f : Fin 64) :
    rSum (up X) ei n f = ((∑ e ∈ seg ei n, Yr X ei e f : ℝ) : EReal) := by
  rw [rSum, zero_eq, zero_add]
  exact coe_sum _ (fun e => Yr X ei e f)

theorem rMeanNF_eq (n : Fin 50000) (f : Fin 64) :
    rMeanNF (up X) ei n f = (((∑ e ∈ seg ei n, Yr X ei e f) / denR (seg ei n) : ℝ) : EReal) := by
  rw [rMeanNF, rSum_eq, den_eq, div_coe_coe _ (denR_pos _).ne']

theorem rMean_eq (n : Fin 50000) : rMean (up X) ei n = ((meanR (seg ei n) (Yr X ei) : ℝ) : EReal) := by
  rw [rMean, zero_eq, zero_add, c64_eq, Finset.sum_congr rfl fun f _ => rMeanNF_eq X ei n f, coe_sum,
    div_coe_coe _ (by norm_num)]; rfl

/-- For an edge of node `n` the centred entry is centred at the mean of node `n`. -/
theorem rDiff_eq (n : Fin 50000) (e : Fin 1250000) (he : e ∈ seg ei n) (f : Fin 64) :
    rDiff (up X) ei e f = ((Yr X ei e f - meanR (seg ei n) (Yr X ei) : ℝ) : EReal) := by
  rw [rDiff, node_row ei n e he, rMean_eq, xc_eq, ← EReal.coe_sub]

theorem rSq_eq (n : Fin 50000) (f : Fin 64) :
    rSq (up X) ei n f = ((∑ e ∈ seg ei n, (Yr X ei e f - meanR (seg ei n) (Yr X ei))
      * (Yr X ei e f - meanR (seg ei n) (Yr X ei)) : ℝ) : EReal) := by
  rw [rSq, zero_eq, zero_add, ← coe_sum]
  refine Finset.sum_congr rfl fun e he => ?_
  rw [rDiff_eq X ei n e he f, ← EReal.coe_mul]

theorem rVarNF_eq (n : Fin 50000) (f : Fin 64) :
    rVarNF (up X) ei n f = (((∑ e ∈ seg ei n, (Yr X ei e f - meanR (seg ei n) (Yr X ei))
      * (Yr X ei e f - meanR (seg ei n) (Yr X ei))) / denR (seg ei n) : ℝ) : EReal) := by
  rw [rVarNF, rSq_eq, den_eq, div_coe_coe _ (denR_pos _).ne']

theorem rVar_eq (n : Fin 50000) :
    rVar (up X) ei n = ((varR (seg ei n) (Yr X ei) (meanR (seg ei n) (Yr X ei)) : ℝ) : EReal) := by
  rw [rVar, zero_eq, zero_add, c64_eq, Finset.sum_congr rfl fun f _ => rVarNF_eq X ei n f, coe_sum,
    div_coe_coe _ (by norm_num)]; rfl

/-! ## The two normalised entries -/

/-- A real difference over the root of a positive real, both ways. -/
theorem norm_two_ways (d m w : ℝ) (hw : 0 < w) :
    ((d : EReal) - (m : EReal)) * Ideal.rsqrt (w : EReal)
      = Ideal.div ((d : EReal) - (m : EReal)) (Ideal.sqrt (w : EReal)) := by
  rw [Ideal.rsqrt_coe, Ideal.sqrt_coe, if_neg (not_lt.mpr hw.le), if_neg hw.ne', if_neg (not_lt.mpr hw.le),
    Ideal.div_coe (Real.sqrt_pos.mpr hw).ne', one_div]

theorem kQ_eq_rQ_up (e : Fin 1250000) (f : Fin 64) : kQ (up X) ei e f = rQ (up X) ei e f := by
  obtain ⟨r, hr, hreps⟩ := eps_eq
  have hm : meanR (seg ei (node (rowW ei e))) (Yr X ei) = meanK (seg ei (node (rowW ei e))) (Yr X ei) :=
    meanR_eq _ _
  have hv : varR (seg ei (node (rowW ei e))) (Yr X ei) (meanK (seg ei (node (rowW ei e))) (Yr X ei))
      = varK (seg ei (node (rowW ei e))) (Yr X ei) := varR_eq _ _
  have hv0 : 0 ≤ varK (seg ei (node (rowW ei e))) (Yr X ei) := by
    rw [← hv]; exact varR_nonneg _ _ _
  rw [kQ, rQ, kStat0, kStat1, rDiff, kMean_eq, kVar_eq, rMean_eq, rVar_eq, hm, hv, hreps, xc_eq,
    ← EReal.coe_add]
  exact norm_two_ways _ _ _ (by linarith)

theorem kQ_eq_rQ (x : XTab) (ei : ETab) (hx : ∀ i, ∃ r : ℝ, x i = (r : EReal)) (e : Fin 1250000) (f : Fin 64) :
    kQ x ei e f = rQ x ei e f := by
  choose X hX using hx
  obtain rfl : x = up X := funext hX
  exact kQ_eq_rQ_up X ei e f

end Cert.NbrNorm

end
-- ==== Proof.Finite.lean ====
/-
  Under the precondition every entry of the feature table is a real number.

  The precondition is the conjunction of three "all entries are below +∞ in absolute value" tests, one per float
  argument. Its first conjunct, read at an entry `i`, says max (x i) (-(x i)) < ⊤ on the extended reals, which rules out
  both infinities: what is left is the coercion of a real.
-/
import proofs.«157844_j10153302687998_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.NbrNorm

open Idealize.ShloMosaic

/-- The rank-0 shape has one index. -/
instance subsingleton_scalarIdx : Subsingleton Cert.Pre_finite_inputs.S_.Idx := ⟨fun a b => funext fun d => d.elim0⟩

/-- An extended real whose absolute value is below +∞ is a real. -/
theorem real_of_abs_lt_top (y : EReal) (h : max y (-y) < ⊤) : ∃ r : ℝ, y = (r : EReal) := by
  induction y using EReal.rec with
  | bot => exact absurd h (by simp)
  | coe r => exact ⟨r, rfl⟩
  | top => exact absurd h (by simp)

/-- The precondition's first conjunct at an entry of the feature table. -/
theorem real_of_pre [Cert.Pre_finite_inputs.Facts] (x : FVec Ideal Cert.Pre_finite_inputs.S50000x64 .f32)
    (ei : IVec Cert.Pre_finite_inputs.S2x1250000 32) (g b : FVec Ideal Cert.Pre_finite_inputs.S64 .f32)
    (h : Cert.Pre_finite_inputs.fn (F := Ideal) x ei g b = fun _ => 1#1) (i : Cert.Pre_finite_inputs.S50000x64.Idx) :
    ∃ r : ℝ, x i = (r : EReal) := by
  have h0 := congrFun h ValueIdx.ix0
  dsimp only [Cert.Pre_finite_inputs.fn] at h0
  obtain ⟨h1, _⟩ := IntOp.andi_eq_one.1 h0
  obtain ⟨hA, _⟩ := IntOp.andi_eq_one.1 h1
  have hi := Host.reduce_andi_all _ _ _ _ _ hA i
  refine real_of_abs_lt_top (x i) ?_
  have hi' : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hi'
  by_contra hn
  have h0' : Ideal.cmp .olt (max (x i) (-(x i))) ⊤ = 0#1 := by simp [Ideal.cmp, hn]
  rw [h0'] at hi'
  exact absurd hi' (by decide)

end Cert.NbrNorm

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«157844_j10153302687998_1_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.RefMean.lean ====
/-
  The reference's first half read at an index: the gathered features, the clamped edge count of a node, and a node's
  mean — the features of its edges summed feature by feature, each sum divided by the clamped count, the 64 quotients
  averaged.
-/
import proofs.«157844_j10153302687998_1_alg».proof.Proof.Gen.ReferenceIdeal.Read
import proofs.«157844_j10153302687998_1_alg».proof.Proof.Spec
import proofs.«157844_j10153302687998_1_alg».proof.Proof.LibScatterRead
import proofs.«157844_j10153302687998_1_alg».proof.Proof.LibScatterVec

noncomputable section

open scoped BigOperators

namespace Cert.ReferenceIdeal.RefMean

open Cert.ReferenceIdeal Cert.ReferenceIdeal.Gen Cert.ReferenceIdeal.Read Idealize.ShloMosaic Idealize.ShloMosaic.ValueIdx
open Cert.NbrNorm

variable (x0 : XTab) (x1 : ETab)

/-! ## Where the layout operations read -/

/-- A one-column index flattens to its row. -/
private theorem idx17 (n : Fin 50000) : idx_main_v17 (ix2 n (0 : Fin 1)) = ix1 n := by
  funext a; match a with | ⟨0, _⟩ => rfl

private theorem idx24 (n : Fin 50000) : idx_main_v24 (ix2 n (0 : Fin 1)) = ix1 n := by
  funext a; match a with | ⟨0, _⟩ => rfl

/-- Every column of row `n` of the laid-out count reads the column's one entry of row `n`. -/
private theorem idx21 (n : Fin 50000) (f : Fin 64) : idx_main_v21 (ix2 n f) = ix2 n (0 : Fin 1) := by
  funext a; match a with | ⟨0, _⟩ => rfl | ⟨1, _⟩ => rfl

/-- The `k`-th summand of row `n`'s sum over the features is the entry (n, k). -/
private theorem idx23 (n : Fin 50000) (k : Fin 64) : idx_main_v23 (ix1 n) k = ix2 n k := by
  funext a; match a with | ⟨0, _⟩ => rfl | ⟨1, _⟩ => rfl

private theorem idx9 (e : Fin 1250000) : idx_main_v9 (ix2 e (0 : Fin 1)) = ix1 e := by
  funext a; match a with | ⟨0, _⟩ => rfl

private theorem idx13 (e : Fin 1250000) : idx_main_v13 (ix2 e (0 : Fin 1)) = ix1 e := by
  funext a; match a with | ⟨0, _⟩ => rfl

private theorem idx19 (e : Fin 1250000) : idx_main_v19 (ix2 e (0 : Fin 1)) = ix1 e := by
  funext a; match a with | ⟨0, _⟩ => rfl

/-! ## The two rows of the edge list, flattened -/

/-- Entry `e` of the first row of the edge list, sliced out and flattened: edge `e`'s row word. -/
private theorem row_word (e : Fin 1250000) : val_main_v1 (F := Ideal) x1 (ix1 e) = rowW x1 e := by
  rw [val_main_v1_apply, val_main_v0_apply]
  unfold rowW
  refine congrArg x1 ?_
  funext a
  match a with
  | ⟨0, _⟩ => rfl
  | ⟨1, _⟩ => exact Fin.ext (Nat.mod_eq_of_lt e.isLt)

/-- Entry `e` of the second row, sliced out and flattened: edge `e`'s column word. -/
private theorem col_word (e : Fin 1250000) : val_main_v3 (F := Ideal) x1 (ix1 e) = colW x1 e := by
  rw [val_main_v3_apply, val_main_v2_apply]
  unfold colW
  refine congrArg x1 ?_
  funext a
  match a with
  | ⟨0, _⟩ => rfl
  | ⟨1, _⟩ => exact Fin.ext (Nat.mod_eq_of_lt e.isLt)

/-- The column words after the index normalisation: 50000 added where the word reads negative. -/
private theorem nrm_word (e : Fin 1250000) : val_main_v8 (F := Ideal) x1 (ix1 e) = nrm (colW x1 e) := by
  rw [val_main_v8_apply, val_main_v5_apply, val_main_v7_apply, val_main_v4_apply, val_main_v6_apply,
    val_main_c_apply, val_main_c_0_apply, col_word]
  rfl

/-- The normalised column words stood up as a column. -/
private theorem nrm_col (e : Fin 1250000) : val_main_v9 (F := Ideal) x1 (ix2 e (0 : Fin 1)) = nrm (colW x1 e) := by
  rw [val_main_v9_apply, idx9]
  exact nrm_word x1 e

/-- The row words stood up as a column, as the count's scatter reads them. -/
private theorem row_col13 (e : Fin 1250000) : val_main_v13 (F := Ideal) x1 (ix2 e (0 : Fin 1)) = rowW x1 e := by
  rw [val_main_v13_apply, idx13]
  exact row_word x1 e

/-- The same column, as the feature scatter reads it. -/
private theorem row_col19 (e : Fin 1250000) : val_main_v19 (F := Ideal) x1 (ix2 e (0 : Fin 1)) = rowW x1 e := by
  rw [val_main_v19_apply, idx19]
  exact row_word x1 e

/-- The row gather of the feature table at the normalised column words. -/
theorem xc_read (e : Fin 1250000) (f : Fin 64) : val_main_v10 (F := Ideal) x0 x1 (ix2 e f) = xc x0 x1 e f := by
  unfold val_main_v10
  refine (Cert.SparseMM.gather_rows_apply (S := 50000) (B := 64) (N := 1250000) (by decide)
    gather_S50000x64_S1250000x1_S1250000x64_1_0_n_n_0_1_164_wf x0 (val_main_v9 (F := Ideal) x1) e f).trans ?_
  unfold xc node
  refine congrArg x0 (congrArg (fun r => ix2 r f) (Fin.ext ?_))
  show min (val_main_v9 (F := Ideal) x1 (ix2 e (0 : Fin 1))).toInt.toNat (50000 - 1)
    = min (nrm (colW x1 e)).toInt.toNat (50000 - 1)
  rw [nrm_col]

/-- The edges whose row word, read signed, is `n`: the set the count's scatter sums over. -/
private theorem seg13 (n : Fin 50000) :
    (Finset.univ.filter fun k : Fin 1250000 => (val_main_v13 (F := Ideal) x1 (ix2 k (0 : Fin 1))).toInt = (n.val : Int))
      = seg x1 n := by
  unfold seg
  refine Finset.filter_congr (fun k _ => ?_)
  rw [row_col13]

/-- The same set, as the feature scatter meets it. -/
private theorem seg19 (n : Fin 50000) :
    (Finset.univ.filter fun k : Fin 1250000 => (val_main_v19 (F := Ideal) x1 (ix2 k (0 : Fin 1))).toInt = (n.val : Int))
      = seg x1 n := by
  unfold seg
  refine Finset.filter_congr (fun k _ => ?_)
  rw [row_col19]

/-- A node's edge count: ones scattered onto a zero vector at the row words. -/
private theorem cnt_read (n : Fin 50000) : val_main_v14 (F := Ideal) x1 (ix1 n) = cnt x1 n := by
  unfold val_main_v14
  refine (Cert.SparseVec.scatterAdd_vec_apply (R := 50000) (N := 1250000)
    scatter_S50000_S1250000x1_S1250000_n_0_0_1_wf (val_main_v12 (F := Ideal)) (val_main_v13 (F := Ideal) x1)
    (val_main_v11 (F := Ideal)) n).trans ?_
  rw [seg13, val_main_v12_apply, val_main_cst_1_apply]
  unfold cnt
  refine congrArg (zero + ·) (Finset.sum_congr rfl fun k _ => ?_)
  rw [val_main_v11_apply, val_main_cst_apply]
  rfl

/-- The clamped count, stood up as a column. -/
theorem den_read (n : Fin 50000) : val_main_v17 (F := Ideal) x1 (ix2 n (0 : Fin 1)) = den x1 n := by
  rw [val_main_v17_apply, idx17, val_main_v16_apply, cnt_read, val_main_v15_apply, val_main_cst_2_apply]
  rfl

/-- Feature `f` summed over a node's edges: the gathered rows scattered onto a zero table at the row words. -/
private theorem sum_read (n : Fin 50000) (f : Fin 64) : val_main_v20 (F := Ideal) x0 x1 (ix2 n f) = rSum x0 x1 n f := by
  unfold val_main_v20
  refine (Cert.SparseMM.scatterAdd_rows_apply (R := 50000) (B := 64) (N := 1250000)
    scatter_S50000x64_S1250000x1_S1250000x64_1_0_0_1_wf (val_main_v18 (F := Ideal)) (val_main_v19 (F := Ideal) x1)
    (val_main_v10 (F := Ideal) x0 x1) n f).trans ?_
  rw [seg19, val_main_v18_apply, val_main_cst_3_apply]
  unfold rSum
  refine congrArg (zero + ·) (Finset.sum_congr rfl fun k _ => ?_)
  exact xc_read x0 x1 k f

/-- The per-feature mean: the sum divided by the clamped count laid over the 64 columns. -/
private theorem meanNF_read (n : Fin 50000) (f : Fin 64) : val_main_v22 (F := Ideal) x0 x1 (ix2 n f) = rMeanNF x0 x1 n f := by
  rw [val_main_v22_apply, val_main_v21_apply, idx21, sum_read, den_read]
  rfl

/-- A node's mean, as a column. -/
theorem mean_read (n : Fin 50000) : val_main_v26 (F := Ideal) x0 x1 (ix2 n (0 : Fin 1)) = rMean x0 x1 n := by
  rw [val_main_v26_apply, val_main_v25_apply, val_main_cst_5_apply, val_main_v24_apply, idx24, val_main_v23_apply,
    val_main_cst_4_apply]
  unfold rMean
  refine congrArg (fun s => Ideal.div (zero + s) c64) (Finset.sum_congr rfl fun k _ => ?_)
  rw [idx23]
  exact meanNF_read x0 x1 n k

end Cert.ReferenceIdeal.RefMean

end
-- ==== Proof.RefVar.lean ====
/-
  The reference's second half read at an index: an edge's centred features (its gathered features less the mean of the
  node its row word names) and a node's variance — the centred squares of its edges summed feature by feature, each sum
  divided by the clamped count, the 64 quotients averaged.
-/
import proofs.«157844_j10153302687998_1_alg».proof.Proof.RefMean

noncomputable section

open scoped BigOperators

namespace Cert.ReferenceIdeal.RefVar

open Cert.ReferenceIdeal Cert.ReferenceIdeal.Gen Cert.ReferenceIdeal.Read Idealize.ShloMosaic Idealize.ShloMosaic.ValueIdx
open Cert.NbrNorm

variable (x0 : XTab) (x1 : ETab)

/-- Edge e's row word, read through the slice and the flattening of the edge list. -/
private theorem row_word (e : Fin 1250000) : val_main_v1 (F := Ideal) x1 (ix1 e) = rowW x1 e := by
  rw [val_main_v1_apply, val_main_v0_apply]
  unfold rowW
  refine congrArg x1 ?_
  funext a
  refine Fin.ext ?_
  match a with
  | ⟨0, _⟩ => rfl
  | ⟨1, _⟩ => show (e.val % 1250000) = e.val; exact Nat.mod_eq_of_lt e.isLt

/-- The column of normalised row words holds, at edge e, the normalised row word of e. -/
private theorem nrm_word (e : Fin 1250000) : val_main_v32 (F := Ideal) x1 (ix2 e (0 : Fin 1)) = nrm (rowW x1 e) := by
  rw [val_main_v32_apply]
  have hi : idx_main_v32 (ix2 e (0 : Fin 1)) = ix1 e := by
    funext a; match a with | ⟨0, _⟩ => rfl
  rw [hi, val_main_v31_apply, val_main_v28_apply, val_main_v30_apply, val_main_v27_apply, val_main_v29_apply,
    val_main_c_6_apply, val_main_c_7_apply, row_word]
  rfl

/-- The mean column gathered at the normalised row words: edge e reads the mean of the node its row word names. -/
private theorem mean_gathered (e : Fin 1250000) :
    val_main_v33 (F := Ideal) x0 x1 (ix2 e (0 : Fin 1)) = rMean x0 x1 (node (rowW x1 e)) := by
  unfold val_main_v33
  refine (Cert.SparseMM.gather_rows_apply (S := 50000) (B := 1) (N := 1250000) (by decide)
    Facts₀.gather_S50000x1_S1250000x1_S1250000x1_1_0_n_n_0_1_11_wf
    (val_main_v26 (F := Ideal) x0 x1) (val_main_v32 (F := Ideal) x1) e 0).trans ?_
  have hn : (⟨min (val_main_v32 (F := Ideal) x1 (ix2 e (0 : Fin 1))).toInt.toNat (50000 - 1), by omega⟩ : Fin 50000)
      = node (rowW x1 e) :=
    Fin.ext (by show min _ _ = min _ _; rw [nrm_word])
  refine (congrArg (fun n => val_main_v26 (F := Ideal) x0 x1 (ix2 n (0 : Fin 1))) hn).trans ?_
  exact RefMean.mean_read x0 x1 (node (rowW x1 e))

/-- The centred entry. -/
theorem diff_read (e : Fin 1250000) (f : Fin 64) : val_main_v35 (F := Ideal) x0 x1 (ix2 e f) = rDiff x0 x1 e f := by
  rw [val_main_v35_apply, RefMean.xc_read, val_main_v34_apply]
  have hi : idx_main_v34 (ix2 e f) = ix2 e (0 : Fin 1) := by
    funext a; match a with | ⟨0, _⟩ => rfl | ⟨1, _⟩ => rfl
  rw [hi, mean_gathered]
  rfl

/-- The column of raw row words holds, at edge e, the row word of e. -/
private theorem raw_word (e : Fin 1250000) : val_main_v38 (F := Ideal) x1 (ix2 e (0 : Fin 1)) = rowW x1 e := by
  rw [val_main_v38_apply]
  have hi : idx_main_v38 (ix2 e (0 : Fin 1)) = ix1 e := by
    funext a; match a with | ⟨0, _⟩ => rfl
  rw [hi, row_word]

/-- The centred squares scattered onto a zero table at the row words: node n, feature f, holds the sum of the
    squared centred entries of feature f over the edges whose row word is n. -/
private theorem sq_read (n : Fin 50000) (f : Fin 64) : val_main_v39 (F := Ideal) x0 x1 (ix2 n f) = rSq x0 x1 n f := by
  unfold val_main_v39
  refine (Cert.SparseMM.scatterAdd_rows_apply (R := 50000) (B := 64) (N := 1250000)
    Facts₀.scatter_S50000x64_S1250000x1_S1250000x64_1_0_0_1_wf
    (val_main_v37 (F := Ideal)) (val_main_v38 (F := Ideal) x1) (val_main_v36 (F := Ideal) x0 x1) n f).trans ?_
  unfold rSq seg
  rw [val_main_v37_apply, val_main_cst_8_apply]
  refine congrArg₂ (· + ·) rfl ?_
  refine Finset.sum_congr (Finset.filter_congr fun e _ => by rw [raw_word]) fun e _ => ?_
  rw [val_main_v36_apply, diff_read]
  rfl

/-- Those sums divided by the clamped count. -/
private theorem varNF_read (n : Fin 50000) (f : Fin 64) : val_main_v41 (F := Ideal) x0 x1 (ix2 n f) = rVarNF x0 x1 n f := by
  rw [val_main_v41_apply, sq_read, val_main_v40_apply]
  have hi : idx_main_v40 (ix2 n f) = ix2 n (0 : Fin 1) := by
    funext a; match a with | ⟨0, _⟩ => rfl | ⟨1, _⟩ => rfl
  rw [hi, RefMean.den_read]
  rfl

/-- A node's variance, as a column. -/
theorem var_read (n : Fin 50000) : val_main_v45 (F := Ideal) x0 x1 (ix2 n (0 : Fin 1)) = rVar x0 x1 n := by
  rw [val_main_v45_apply, val_main_v44_apply, val_main_cst_10_apply, val_main_v43_apply]
  have hi : idx_main_v43 (ix2 n (0 : Fin 1)) = ix1 n := by
    funext a; match a with | ⟨0, _⟩ => rfl
  rw [hi, val_main_v42_apply, val_main_cst_9_apply]
  have hs : ∀ k : Fin 64, val_main_v41 (F := Ideal) x0 x1 (idx_main_v42 (ix1 n) k) = rVarNF x0 x1 n k := by
    intro k
    have hk : idx_main_v42 (ix1 n) k = ix2 n k := by
      funext a; match a with | ⟨0, _⟩ => rfl | ⟨1, _⟩ => rfl
    rw [hk, varNF_read]
  rw [Finset.sum_congr rfl fun k _ => hs k]
  rfl

end Cert.ReferenceIdeal.RefVar

end
-- ==== Proof.RefRead.lean ====
/-
  The reference's last stretch read at an entry: the variance of the node an edge's row word names, epsilon added and the
  square root taken, the edge's centred feature divided by that root, and the quotient scaled by the feature's gamma and
  shifted by its beta.
-/
import proofs.«157844_j10153302687998_1_alg».proof.Proof.RefVar

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NbrNorm

variable (x0 : XTab) (x1 : ETab)

/-- The first row of the edge list, flattened: entry `e` is edge `e`'s row word. -/
theorem row_read (e : Fin 1250000) : val_main_v1 (F := Ideal) x1 (ix1 e) = rowW x1 e := by
  rw [val_main_v1_apply, val_main_v0_apply]
  unfold rowW
  refine congrArg x1 (funext fun a => Fin.ext ?_)
  match a with
  | ⟨0, _⟩ => rfl
  | ⟨1, _⟩ => exact Nat.mod_eq_of_lt e.isLt

/-- The row words normalised: 50000 added to a word that reads negative. -/
theorem nrm_read (e : Fin 1250000) : val_main_v50 (F := Ideal) x1 (ix1 e) = nrm (rowW x1 e) := by
  rw [val_main_v50_apply, val_main_v47_apply, val_main_v49_apply, val_main_v46_apply, val_main_v48_apply,
    val_main_c_11_apply, val_main_c_12_apply, row_read]
  rfl

/-- The normalised row words stood up as a column. -/
theorem nrmcol_read (e : Fin 1250000) : val_main_v51 (F := Ideal) x1 (ix2 e (0 : Fin 1)) = nrm (rowW x1 e) := by
  rw [val_main_v51_apply]
  refine Eq.trans (congrArg (val_main_v50 (F := Ideal) x1) (funext fun a => Fin.ext ?_)) (nrm_read x1 e)
  match a with
  | ⟨0, _⟩ => rfl

/-- The variance column gathered at the normalised row words: edge `e` reads the variance of the node its row word names. -/
theorem vargather_read (e : Fin 1250000) :
    val_main_v52 (F := Ideal) x0 x1 (ix2 e (0 : Fin 1)) = rVar x0 x1 (node (rowW x1 e)) := by
  unfold val_main_v52
  refine (Cert.SparseMM.gather_rows_apply (S := 50000) (B := 1) (N := 1250000) (by decide)
    (wf := gather_S50000x1_S1250000x1_S1250000x1_1_0_n_n_0_1_11.wf)
    (val_main_v45 (F := Ideal) x0 x1) (val_main_v51 (F := Ideal) x1) e (0 : Fin 1)).trans ?_
  refine Eq.trans (congrArg (fun n : Fin 50000 => val_main_v45 (F := Ideal) x0 x1 (ix2 n (0 : Fin 1))) (Fin.ext ?_))
    (RefVar.var_read x0 x1 (node (rowW x1 e)))
  show min (val_main_v51 (F := Ideal) x1 (ix2 e (0 : Fin 1))).toInt.toNat (50000 - 1) = (node (rowW x1 e)).val
  rw [nrmcol_read]
  rfl

/-- The reference's result at edge `e`, feature `f`: gamma times the normalised entry, plus beta. -/
theorem ref_apply (x0 : XTab) (x1 : ETab) (x2 x3 : (⟨1, ![64]⟩ : Shape).Idx → EReal) (e : Fin 1250000) (f : Fin 64) :
    val_main_v63 (F := Ideal) x0 x1 x2 x3 (ix2 e f) = x2 (ix1 f) * rQ x0 x1 e f + x3 (ix1 f) := by
  have h58 : idx_main_v58 (idx_main_v59 (ix2 e f)) = ix1 f := by
    funext a; refine Fin.ext ?_
    match a with
    | ⟨0, _⟩ => rfl
  have h61 : idx_main_v61 (idx_main_v62 (ix2 e f)) = ix1 f := by
    funext a; refine Fin.ext ?_
    match a with
    | ⟨0, _⟩ => rfl
  have h56 : idx_main_v56 (ix2 e f) = ix2 e (0 : Fin 1) := by
    funext a; refine Fin.ext ?_
    match a with
    | ⟨0, _⟩ => rfl
    | ⟨1, _⟩ => rfl
  rw [val_main_v63_apply, val_main_v60_apply, val_main_v62_apply, val_main_v61_apply, val_main_v59_apply,
    val_main_v58_apply, val_main_v57_apply, val_main_v56_apply, val_main_v55_apply, val_main_v54_apply,
    val_main_v53_apply, val_main_cst_13_apply, h58, h61, h56, RefVar.diff_read, vargather_read]
  rfl

end Cert.ReferenceIdeal.RefValue

end
-- ==== Proof.KernelHostStages.lean ====
/-
  The host operations that run before the kernel, as named stages.

  From the feature table `x0` [50000, 64] and the edge list `x1` [2, 1250000] the host prepares the kernel's two big
  operands: the gathered features (row `e` is the table's row at edge `e`'s normalised column word) and the per-edge
  statistics [1250000, 2] (column 0 the mean, column 1 the reciprocal standard deviation of the node edge `e`'s row word
  names). A node's statistics come from two numbers per node — the sum of its features and the sum of their squares —
  gathered at the column words and added up over the edges whose row word is that node. Each stage below is one such step
  spelt with the host's own operations.
-/
import proofs.«157844_j10153302687998_1_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The row words and the column words of the edge list, each as a vector. -/
def rowVec (x1 : (⟨S2x1250000, .i32⟩ : BufTy).Contents (Elt F)) : (⟨S1250000, .i32⟩ : BufTy).Contents (Elt F) :=
  shapeCast _ (extractStridedSlice S1x1250000 ![0, 0] x1 slices_S2x1250000_S1x1250000_0_0) shapeCasts_S1x1250000_S1250000
def colVec (x1 : (⟨S2x1250000, .i32⟩ : BufTy).Contents (Elt F)) : (⟨S1250000, .i32⟩ : BufTy).Contents (Elt F) :=
  shapeCast _ (extractStridedSlice S1x1250000 ![1, 0] x1 slices_S2x1250000_S1x1250000_1_0) shapeCasts_S1x1250000_S1250000

/-- jnp's normalisation of a vector of index words: 50000 added where the word reads negative. -/
def nrmVec (w : (⟨S1250000, .i32⟩ : BufTy).Contents (Elt F)) : (⟨S1250000, .i32⟩ : BufTy).Contents (Elt F) :=
  select (cmpi .slt w (broadcastInDim S1250000 ![] bcast_S_S1250000 (constantI S_ 32 0#32)))
    (addi w (broadcastInDim S1250000 ![] bcast_S_S1250000 (constantI S_ 32 50000#32))) w

/-- A vector of words stood up as the column of start indices; a vector of floats stood up as a column. -/
def colI (w : (⟨S1250000, .i32⟩ : BufTy).Contents (Elt F)) : (⟨S1250000x1, .i32⟩ : BufTy).Contents (Elt F) :=
  broadcastInDim S1250000x1 ![0] bcast_S1250000_S1250000x1_0 w
def colF (v : (⟨S1250000, .f32⟩ : BufTy).Contents (Elt F)) : (⟨S1250000x1, .f32⟩ : BufTy).Contents (Elt F) :=
  broadcastInDim S1250000x1 ![0] bcast_S1250000_S1250000x1_0 v

/-- The zero vector a scatter accumulates onto. -/
def zeros : (⟨S50000, .f32⟩ : BufTy).Contents (Elt F) :=
  broadcastInDim S50000 ![] bcast_S_S50000 (constant (F := F) S_ .f32 0x00000000#32)

/-- A node's feature sum, and the sum of its squared features. -/
def rowsum (x0 : (⟨S50000x64, .f32⟩ : BufTy).Contents (Elt F)) : (⟨S50000, .f32⟩ : BufTy).Contents (Elt F) :=
  Host.reduceAdd x0 (constant (F := F) S_ .f32 0x00000000#32) reducesTo_S50000x64_S50000_d1 h_S_
def rowsq (x0 : (⟨S50000x64, .f32⟩ : BufTy).Contents (Elt F)) : (⟨S50000, .f32⟩ : BufTy).Contents (Elt F) :=
  Host.reduceAdd (mulf x0 x0) (constant (F := F) S_ .f32 0x00000000#32) reducesTo_S50000x64_S50000_d1 h_S_

/-- A node's edge count (ones added up at the row words) and the count clamped below at one. -/
def cntVec (x1 : (⟨S2x1250000, .i32⟩ : BufTy).Contents (Elt F)) : (⟨S50000, .f32⟩ : BufTy).Contents (Elt F) :=
  Host.scatterAdd scatter_S50000_S1250000x1_S1250000_n_0_0_1 (zeros (F := F)) (colI (F := F) (rowVec (F := F) x1))
    (broadcastInDim S1250000 ![] bcast_S_S1250000 (constant (F := F) S_ .f32 0x3F800000#32))
def denVec (x1 : (⟨S2x1250000, .i32⟩ : BufTy).Contents (Elt F)) : (⟨S50000, .f32⟩ : BufTy).Contents (Elt F) :=
  maximumf (cntVec (F := F) x1) (broadcastInDim S50000 ![] bcast_S_S50000 (constant (F := F) S_ .f32 0x3F800000#32))

/-- A per-node vector gathered at the column words and added up at the row words: the sum, over a node's edges, of the
    vector's entry at each edge's column node. -/
def segSum (v : (⟨S50000, .f32⟩ : BufTy).Contents (Elt F)) (x1 : (⟨S2x1250000, .i32⟩ : BufTy).Contents (Elt F)) :
    (⟨S50000, .f32⟩ : BufTy).Contents (Elt F) :=
  Host.scatterAdd scatter_S50000_S1250000x1_S1250000_n_0_0_1 (zeros (F := F)) (colI (F := F) (rowVec (F := F) x1))
    (Host.gather gather_S50000_S1250000x1_S1250000_n_0_n_n_0_1_1 v (colI (F := F) (nrmVec (F := F) (colVec (F := F) x1))))

/-- 64 times the clamped count; the mean; the variance as the mean square less mean times sum. -/
def fdenVec (x1 : (⟨S2x1250000, .i32⟩ : BufTy).Contents (Elt F)) : (⟨S50000, .f32⟩ : BufTy).Contents (Elt F) :=
  mulf (broadcastInDim S50000 ![] bcast_S_S50000 (constant (F := F) S_ .f32 0x42800000#32)) (denVec (F := F) x1)
def meanVec (x0 : (⟨S50000x64, .f32⟩ : BufTy).Contents (Elt F)) (x1 : (⟨S2x1250000, .i32⟩ : BufTy).Contents (Elt F)) :
    (⟨S50000, .f32⟩ : BufTy).Contents (Elt F) :=
  Host.divf (segSum (F := F) (rowsum (F := F) x0) x1) (fdenVec (F := F) x1)
def varVec (x0 : (⟨S50000x64, .f32⟩ : BufTy).Contents (Elt F)) (x1 : (⟨S2x1250000, .i32⟩ : BufTy).Contents (Elt F)) :
    (⟨S50000, .f32⟩ : BufTy).Contents (Elt F) :=
  Host.divf (subf (segSum (F := F) (rowsq (F := F) x0) x1) (mulf (meanVec (F := F) x0 x1) (segSum (F := F) (rowsum (F := F) x0) x1)))
    (fdenVec (F := F) x1)

/-- A per-node vector read at every edge's row node. -/
def atRow (v : (⟨S50000, .f32⟩ : BufTy).Contents (Elt F)) (x1 : (⟨S2x1250000, .i32⟩ : BufTy).Contents (Elt F)) :
    (⟨S1250000, .f32⟩ : BufTy).Contents (Elt F) :=
  Host.gather gather_S50000_S1250000x1_S1250000_n_0_n_n_0_1_1 v (colI (F := F) (nrmVec (F := F) (rowVec (F := F) x1)))

/-- The reciprocal standard deviation per edge: the row node's variance plus epsilon, under the reciprocal square root. -/
def invStd (x0 : (⟨S50000x64, .f32⟩ : BufTy).Contents (Elt F)) (x1 : (⟨S2x1250000, .i32⟩ : BufTy).Contents (Elt F)) :
    (⟨S1250000, .f32⟩ : BufTy).Contents (Elt F) :=
  Host.rsqrt (addf (atRow (F := F) (varVec (F := F) x0 x1) x1)
    (broadcastInDim S1250000 ![] bcast_S_S1250000 (constant (F := F) S_ .f32 0x3727C5AC#32)))

/-- The per-edge statistics [1250000, 2]: the mean column beside the reciprocal-deviation column. -/
def stats (x0 : (⟨S50000x64, .f32⟩ : BufTy).Contents (Elt F)) (x1 : (⟨S2x1250000, .i32⟩ : BufTy).Contents (Elt F)) :
    (⟨S1250000x2, .f32⟩ : BufTy).Contents (Elt F) :=
  concatenate S1250000x2 1 [⟨S1250000x1, colF (F := F) (atRow (F := F) (meanVec (F := F) x0 x1) x1)⟩, ⟨S1250000x1, colF (F := F) (invStd (F := F) x0 x1)⟩]
    concatenates_S1250000x1_S1250000x1_S1250000x2_d1

/-- The gathered features [1250000, 64]: the table's rows at the normalised column words. -/
def gathered (x0 : (⟨S50000x64, .f32⟩ : BufTy).Contents (Elt F)) (x1 : (⟨S2x1250000, .i32⟩ : BufTy).Contents (Elt F)) :
    (⟨S1250000x64, .f32⟩ : BufTy).Contents (Elt F) :=
  Host.gather gather_S50000x64_S1250000x1_S1250000x64_1_0_n_n_0_1_164 x0 (colI (F := F) (nrmVec (F := F) (colVec (F := F) x1)))

end Cert.KernelIdeal.Host

end
-- ==== Proof.KernelHostV.lean ====
/-
  The two arrays the kernel finds when it is launched are the `stats` and `gathered` stages of the program's arguments:
  the host operations before the launch, composed, are those stages.
-/
import proofs.«157844_j10153302687998_1_alg».proof.Proof.KernelHostStages

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
/-- The statistics array the kernel finds is the `stats` stage of the two arguments. -/
theorem V_stats (c : Dev nD) :
    V m c main_v58 = stats (F := F) (m ((c : Thread nD τ).loc main_arg0)) (m ((c : Thread nD τ).loc main_arg1)) := by
  dsimp only [V, hostOps0]
  after_results_simp <;> rfl

set_option maxHeartbeats 4000000 in
/-- The feature array the kernel finds is the `gathered` stage of the two arguments. -/
theorem V_gathered (c : Dev nD) :
    V m c main_v65 = gathered (F := F) (m ((c : Thread nD τ).loc main_arg0)) (m ((c : Thread nD τ).loc main_arg1)) := by
  dsimp only [V, hostOps0]
  after_results_simp <;> rfl

end Cert.KernelIdeal.Host

end
-- ==== Proof.KernelHostXc.lean ====
/-
  The gathered features read at an entry.

  The host takes the column words of the edge list as a vector, normalises each word (50000 added where it reads
  negative), stands the vector up as a column of start indices, and gathers the rows of the feature table at those
  indices. Read at edge `e` and feature `f`, the result is the table at the node edge `e`'s column word names: the word
  normalised, read signed and clamped into [0, 49999].
-/
import proofs.«157844_j10153302687998_1_alg».proof.Proof.KernelHostStages
import proofs.«157844_j10153302687998_1_alg».proof.Proof.Spec
import proofs.«157844_j10153302687998_1_alg».proof.Proof.LibScatterRead
import Idealize.ShloMosaic.Lib.Pipeline.Value

noncomputable section

open scoped BigOperators

namespace Cert.KernelIdeal.HostXc

open Cert.KernelIdeal Cert.KernelIdeal.Gen Cert.KernelIdeal.Host Idealize.ShloMosaic Idealize.ShloMosaic.ValueIdx Cert.NbrNorm

/-- The column words as a vector, read at edge `e`: the edge list's entry (1, e). -/
theorem colVec_apply (x1 : ETab) (e : Fin 1250000) : colVec (F := Ideal) x1 (ix1 e) = colW x1 e := by
  unfold colVec
  refine (shapeCast_apply _ shapeCasts_S1x1250000_S1250000 (ix1 e) (ix2 (0 : Fin 1) e) ?_).trans ?_
  · rewrite [Shape.rowMajor_val_two, Shape.rowMajor_val_one]
    show 0 * 1250000 + e.val = e.val
    omega
  · exact extractStridedSlice_apply ![1, 0] x1 slices_S2x1250000_S1x1250000_1_0 (ix2 (0 : Fin 1) e)
      (ix2 (1 : Fin 2) e) (fun a => match a with
        | ⟨0, _⟩ => rfl
        | ⟨1, _⟩ => by show e.val = 0 + e.val; omega)

/-- The row words as a vector, read at edge `e`: the edge list's entry (0, e). -/
theorem rowVec_apply (x1 : ETab) (e : Fin 1250000) : rowVec (F := Ideal) x1 (ix1 e) = rowW x1 e := by
  unfold rowVec
  refine (shapeCast_apply _ shapeCasts_S1x1250000_S1250000 (ix1 e) (ix2 (0 : Fin 1) e) ?_).trans ?_
  · rewrite [Shape.rowMajor_val_two, Shape.rowMajor_val_one]
    show 0 * 1250000 + e.val = e.val
    omega
  · exact extractStridedSlice_apply ![0, 0] x1 slices_S2x1250000_S1x1250000_0_0 (ix2 (0 : Fin 1) e)
      (ix2 (0 : Fin 2) e) (fun a => match a with
        | ⟨0, _⟩ => rfl
        | ⟨1, _⟩ => by show e.val = 0 + e.val; omega)

/-- The normalisation of a vector of words is the normalisation of each word. -/
theorem nrmVec_apply (w : (⟨S1250000, .i32⟩ : BufTy).Contents (Elt Ideal)) (i : S1250000.Idx) :
    nrmVec (F := Ideal) w i = nrm (w i) := rfl

/-- A vector stood up as a column, read at (e, 0): the vector's entry `e`. -/
theorem colI_apply (w : (⟨S1250000, .i32⟩ : BufTy).Contents (Elt Ideal)) (e : Fin 1250000) :
    colI (F := Ideal) w (ix2 e (0 : Fin 1)) = w (ix1 e) := by
  unfold colI
  exact broadcastInDim_apply _ bcast_S1250000_S1250000x1_0 w (ix2 e (0 : Fin 1)) (ix1 e) (fun a => match a with
    | ⟨0, _⟩ => by show e.val = if (1250000 : Nat) = 1 then 0 else e.val; rw [if_neg (by decide)])

/-- The gathered features at (e, f): feature `f` of the node edge `e`'s column word names. -/
theorem gathered_apply (x0 : XTab) (x1 : ETab) (e : Fin 1250000) (f : Fin 64) :
    gathered (F := Ideal) x0 x1 (ix2 e f) = xc x0 x1 e f := by
  unfold gathered
  refine (Cert.SparseMM.gather_rows_apply (S := 50000) (B := 64) (N := 1250000) (by decide)
    gather_S50000x64_S1250000x1_S1250000x64_1_0_n_n_0_1_164_wf x0
    (colI (F := Ideal) (nrmVec (F := Ideal) (colVec (F := Ideal) x1))) e f).trans ?_
  unfold xc
  refine congrArg (fun n => x0 (ix2 n f)) (Fin.ext ?_)
  show min (colI (F := Ideal) (nrmVec (F := Ideal) (colVec (F := Ideal) x1)) (ix2 e 0)).toInt.toNat (50000 - 1)
    = min (nrm (colW x1 e)).toInt.toNat (50000 - 1)
  rw [colI_apply, nrmVec_apply, colVec_apply]

end Cert.KernelIdeal.HostXc

end
-- ==== Proof.LibConcatCols.lean ====
/-
  Two matrices with the same number of rows laid side by side, read at an entry.

  An [n, a] matrix X and an [n, b] matrix Y concatenated along the column axis give an [n, a + b] matrix whose entry
  (p, c) is X(p, c) when c < a and Y(p, c - a) otherwise: the row is kept and the column picks the piece.
-/
import Idealize.ShloMosaic.Lib.Pipeline.Value
import Idealize.ShloMosaic.Lib.ValueIdx

noncomputable section

namespace Cert.ConcatCols

open Idealize.ShloMosaic Idealize.ShloMosaic.ValueIdx

variable {α : Type}

/-- Entry (p, c) of [X | Y]: X(p, c) for a column of the first piece, Y(p, c - a) for one of the second. The total
    width is given by an equation so that a literal width (256 for 128 + 128) matches as it stands. -/
theorem concatenate_cols_apply {n a b t : Nat} (hab : t = a + b)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate ⟨2, ![n, t]⟩ 1 [⟨⟨2, ![n, a]⟩, x⟩, ⟨⟨2, ![n, b]⟩, y⟩] h (ix2 p c)
      = if hc : c.val < a then x (ix2 p ⟨c.val, hc⟩)
        else y (ix2 p ⟨c.val - a, by have := c.isLt; omega⟩) := by
  by_cases hc : c.val < a
  · rw [dif_pos hc]
    exact concatenate_pair_apply_left 1 x y h (ix2 p c) rfl (ix2 p ⟨c.val, hc⟩)
      (fun d => match d with | ⟨0, _⟩ => rfl | ⟨1, _⟩ => rfl)
  · rw [dif_neg hc]
    refine concatenate_pair_apply_right 1 x y h (ix2 p c) rfl rfl (ix2 p ⟨c.val - a, by have := c.isLt; omega⟩) ?_ ?_
    · intro d hd
      match d, hd with
      | ⟨0, _⟩, _ => rfl
      | ⟨1, _⟩, hd => exact absurd rfl hd
    · show (c.val - a) + a = c.val
      omega

end Cert.ConcatCols

end
-- ==== Proof.KernelHostStats.lean ====
/-
  The per-edge statistics the host hands the kernel, read entry by entry on the extended reals.

  Column 0 of the statistics is the mean of the node an edge's row word names, column 1 the reciprocal square root of
  that node's variance plus epsilon. Each host stage is read at one entry, bottom-up: the words of the edge list, the
  per-node feature sums, the per-node sums over a node's edges, the mean and variance, and last the two columns.
-/
import proofs.«157844_j10153302687998_1_alg».proof.Proof.KernelHostStages
import proofs.«157844_j10153302687998_1_alg».proof.Proof.Spec
import proofs.«157844_j10153302687998_1_alg».proof.Proof.LibScatterVec
import proofs.«157844_j10153302687998_1_alg».proof.Proof.LibConcatCols
import Idealize.ShloMosaic.Lib.Pipeline.Value
import Idealize.ShloMosaic.PureOps.Ideal.Laws

noncomputable section

open scoped BigOperators

namespace Cert.KernelIdeal.HostStats

open Cert.KernelIdeal Cert.KernelIdeal.Gen Cert.KernelIdeal.Host Idealize.ShloMosaic Idealize.ShloMosaic.ValueIdx Cert.NbrNorm

/-! ## The words of the edge list -/

/-- The row words as a vector: entry `e` is edge `e`'s row word. -/
theorem rowVec_apply (x1 : ETab) (e : Fin 1250000) : rowVec (F := Ideal) x1 (ix1 e) = rowW x1 e := by
  unfold rowVec
  refine (shapeCast_apply _ shapeCasts_S1x1250000_S1250000 (ix1 e) (ix2 (0 : Fin 1) e) ?_).trans ?_
  · rewrite [Shape.rowMajor_val_two, Shape.rowMajor_val_one]
    show 0 * 1250000 + e.val = e.val
    omega
  · exact extractStridedSlice_apply ![0, 0] x1 slices_S2x1250000_S1x1250000_0_0 (ix2 (0 : Fin 1) e) (ix2 (0 : Fin 2) e)
      (fun a => match a with
        | ⟨0, _⟩ => rfl
        | ⟨1, _⟩ => by show e.val = 0 + e.val; omega)

/-- The column words as a vector: entry `e` is edge `e`'s column word. -/
theorem colVec_apply (x1 : ETab) (e : Fin 1250000) : colVec (F := Ideal) x1 (ix1 e) = colW x1 e := by
  unfold colVec
  refine (shapeCast_apply _ shapeCasts_S1x1250000_S1250000 (ix1 e) (ix2 (0 : Fin 1) e) ?_).trans ?_
  · rewrite [Shape.rowMajor_val_two, Shape.rowMajor_val_one]
    show 0 * 1250000 + e.val = e.val
    omega
  · exact extractStridedSlice_apply ![1, 0] x1 slices_S2x1250000_S1x1250000_1_0 (ix2 (0 : Fin 1) e) (ix2 (1 : Fin 2) e)
      (fun a => match a with
        | ⟨0, _⟩ => rfl
        | ⟨1, _⟩ => by show e.val = 0 + e.val; omega)

/-- A scalar spread over a vector reads the scalar everywhere. -/
theorem splat1250000_apply {α : Type} (c : S_.Idx → α) (i : S1250000.Idx) :
    broadcastInDim S1250000 ![] bcast_S_S1250000 c i = c ix0 :=
  broadcastInDim_apply _ bcast_S_S1250000 c i ix0 (fun a => a.elim0)
theorem splat50000_apply {α : Type} (c : S_.Idx → α) (i : S50000.Idx) :
    broadcastInDim S50000 ![] bcast_S_S50000 c i = c ix0 :=
  broadcastInDim_apply _ bcast_S_S50000 c i ix0 (fun a => a.elim0)

/-- The normalised vector of words read at an entry normalises that entry. -/
theorem nrmVec_apply (w : S1250000.Idx → BitVec 32) (i : S1250000.Idx) :
    nrmVec (F := Ideal) w i = nrm (w i) := by
  unfold nrmVec nrm
  show Scalar.select (IntOp.cmpi .slt (w i) (broadcastInDim S1250000 ![] bcast_S_S1250000 (constantI S_ 32 0#32) i))
    (IntOp.addi (w i) (broadcastInDim S1250000 ![] bcast_S_S1250000 (constantI S_ 32 50000#32) i)) (w i) = _
  rw [splat1250000_apply, splat1250000_apply]
  rfl

/-- A vector stood up as a column reads the vector's entry at the row. -/
theorem colI_apply (w : S1250000.Idx → BitVec 32) (e : Fin 1250000) :
    colI (F := Ideal) w (ix2 e (0 : Fin 1)) = w (ix1 e) := by
  unfold colI
  exact broadcastInDim_apply _ bcast_S1250000_S1250000x1_0 w (ix2 e (0 : Fin 1)) (ix1 e) (fun a => match a with
    | ⟨0, _⟩ => by show e.val = if (1250000 : Nat) = 1 then 0 else e.val; rw [if_neg (by decide)])
theorem colF_apply (v : S1250000.Idx → EReal) (e : Fin 1250000) :
    colF (F := Ideal) v (ix2 e (0 : Fin 1)) = v (ix1 e) := by
  unfold colF
  exact broadcastInDim_apply _ bcast_S1250000_S1250000x1_0 v (ix2 e (0 : Fin 1)) (ix1 e) (fun a => match a with
    | ⟨0, _⟩ => by show e.val = if (1250000 : Nat) = 1 then 0 else e.val; rw [if_neg (by decide)])

/-! ## The per-node feature sums -/

/-- The zero vector reads zero everywhere. -/
theorem zeros_apply (i : S50000.Idx) : zeros (F := Ideal) i = zero := by
  unfold zeros
  exact splat50000_apply _ i

/-- A node's feature sum. -/
theorem rowsum_apply (x0 : XTab) (n : Fin 50000) : rowsum (F := Ideal) x0 (ix1 n) = kRowsum x0 n := by
  unfold rowsum kRowsum
  simp only [Host.reduceAdd, Ideal.hostReduceAdd_def]
  rw [Ideal.hostReduceAdd_single reducesTo_S50000x64_S50000_d1 (by decide)]
  refine congrArg₂ (· + ·) rfl (Finset.sum_congr rfl fun k _ => ?_)
  exact congrArg x0 (funext fun a => Fin.ext (by match a with | ⟨0, _⟩ => rfl | ⟨1, _⟩ => rfl))

/-- A node's sum of squared features. -/
theorem rowsq_apply (x0 : XTab) (n : Fin 50000) : rowsq (F := Ideal) x0 (ix1 n) = kRowsq x0 n := by
  unfold rowsq kRowsq
  simp only [Host.reduceAdd, Ideal.hostReduceAdd_def]
  rw [Ideal.hostReduceAdd_single reducesTo_S50000x64_S50000_d1 (by decide)]
  refine congrArg₂ (· + ·) rfl (Finset.sum_congr rfl fun k _ => ?_)
  show x0 _ * x0 _ = _
  have h : ∀ j : S50000x64.Idx, j = ix2 n k → x0 j * x0 j = x0 (ix2 n k) * x0 (ix2 n k) := fun j hj => by subst hj; rfl
  exact h _ (funext fun a => Fin.ext (by match a with | ⟨0, _⟩ => rfl | ⟨1, _⟩ => rfl))

/-! ## Sums over a node's edges -/

/-- Updates added up at the row words onto the zero vector, read at node `n`: zero plus the sum of the updates of the
    edges whose row word, read signed, is `n`. -/
theorem scatterRow_apply (x1 : ETab) (upd : FVec Ideal S1250000 .f32) (n : Fin 50000) :
    Host.scatterAdd (F := Ideal) (φ := .f32) scatter_S50000_S1250000x1_S1250000_n_0_0_1 (zeros (F := Ideal))
        (colI (F := Ideal) (rowVec (F := Ideal) x1)) upd (ix1 n)
      = zero + ∑ e ∈ seg x1 n, upd (ix1 e) := by
  refine (Cert.SparseVec.scatterAdd_vec_apply (φ := .f32) Facts₀.scatter_S50000_S1250000x1_S1250000_n_0_0_1_wf
    (zeros (F := Ideal)) (colI (F := Ideal) (rowVec (F := Ideal) x1)) upd n).trans ?_
  rw [zeros_apply]
  unfold seg
  simp only [colI_apply, rowVec_apply]

/-- A per-node vector gathered at a column of normalised words, read at edge `e`: the vector at the node the word names. -/
theorem gatherNrm_apply (v : FVec Ideal S50000 .f32) (w : S1250000.Idx → BitVec 32) (e : Fin 1250000) :
    Host.gather gather_S50000_S1250000x1_S1250000_n_0_n_n_0_1_1 v (colI (F := Ideal) (nrmVec (F := Ideal) w)) (ix1 e)
      = v (ix1 (node (w (ix1 e)))) := by
  refine (Cert.SparseVec.gather_vec_apply (by norm_num) Facts₀.gather_S50000_S1250000x1_S1250000_n_0_n_n_0_1_1_wf
    v (colI (F := Ideal) (nrmVec (F := Ideal) w)) e).trans ?_
  simp only [colI_apply, nrmVec_apply]
  rfl

/-- The three float literals the host spreads, each read at its one index. -/
theorem lit_one_apply : constant (F := Ideal) S_ .f32 0x3F800000#32 ix0 = one := rfl
theorem lit_c64_apply : constant (F := Ideal) S_ .f32 0x42800000#32 ix0 = c64 := rfl
theorem lit_eps_apply : constant (F := Ideal) S_ .f32 0x3727C5AC#32 ix0 = eps := rfl

theorem cntVec_apply (x1 : ETab) (n : Fin 50000) : cntVec (F := Ideal) x1 (ix1 n) = cnt x1 n := by
  unfold cntVec cnt
  refine (scatterRow_apply x1 _ n).trans ?_
  refine congrArg₂ (· + ·) rfl (Finset.sum_congr rfl fun e _ => ?_)
  exact (splat1250000_apply (constant (F := Ideal) S_ .f32 0x3F800000#32) (ix1 e)).trans lit_one_apply

/-- The count clamped below at one. -/
theorem denVec_apply (x1 : ETab) (n : Fin 50000) : denVec (F := Ideal) x1 (ix1 n) = den x1 n := by
  unfold denVec den
  refine (maximumf_apply _ _ _).trans ?_
  rw [cntVec_apply, splat50000_apply, lit_one_apply]

/-- A per-node vector summed over a node's edges, each edge contributing the entry at its column node. -/
theorem segSum_apply (v : FVec Ideal S50000 .f32) (x1 : ETab) (n : Fin 50000) :
    segSum (F := Ideal) v x1 (ix1 n) = zero + ∑ e ∈ seg x1 n, v (ix1 (node (colW x1 e))) := by
  unfold segSum
  refine (scatterRow_apply x1 _ n).trans ?_
  refine congrArg₂ (· + ·) rfl (Finset.sum_congr rfl fun e _ => ?_)
  rw [gatherNrm_apply, colVec_apply]

/-- The feature sums, and the sums of squares, added up over a node's edges. -/
theorem segSum_rowsum_apply (x0 : XTab) (x1 : ETab) (n : Fin 50000) :
    segSum (F := Ideal) (rowsum (F := Ideal) x0) x1 (ix1 n) = kS1 x0 x1 n := by
  rw [segSum_apply]
  unfold kS1
  simp only [rowsum_apply]
theorem segSum_rowsq_apply (x0 : XTab) (x1 : ETab) (n : Fin 50000) :
    segSum (F := Ideal) (rowsq (F := Ideal) x0) x1 (ix1 n) = kS2 x0 x1 n := by
  rw [segSum_apply]
  unfold kS2
  simp only [rowsq_apply]

/-! ## Mean and variance per node -/

/-- The host's quotient and reciprocal square root at an entry are the extended reals'. -/
theorem hostDivf_apply {s : Shape} (a b : FVec Ideal s .f32) (i : s.Idx) :
    Host.divf a b i = Ideal.div (a i) (b i) := rfl
theorem hostRsqrt_apply {s : Shape} (a : FVec Ideal s .f32) (i : s.Idx) :
    Host.rsqrt a i = Ideal.rsqrt (a i) := rfl

/-- 64 times the clamped count. -/
theorem fdenVec_apply (x1 : ETab) (n : Fin 50000) : fdenVec (F := Ideal) x1 (ix1 n) = kFden x1 n := by
  unfold fdenVec kFden
  refine (mulf_apply _ _ _).trans ?_
  rw [denVec_apply, splat50000_apply, lit_c64_apply]

/-- The mean. -/
theorem meanVec_apply (x0 : XTab) (x1 : ETab) (n : Fin 50000) :
    meanVec (F := Ideal) x0 x1 (ix1 n) = kMean x0 x1 n := by
  unfold meanVec kMean
  refine (hostDivf_apply _ _ _).trans ?_
  exact congrArg₂ Ideal.div (segSum_rowsum_apply x0 x1 n) (fdenVec_apply x1 n)

/-- The variance. -/
theorem varVec_apply (x0 : XTab) (x1 : ETab) (n : Fin 50000) :
    varVec (F := Ideal) x0 x1 (ix1 n) = kVar x0 x1 n := by
  unfold varVec kVar
  refine (hostDivf_apply _ _ _).trans ?_
  refine congrArg₂ Ideal.div ?_ (fdenVec_apply x1 n)
  refine (subf_apply _ _ _).trans ?_
  refine congrArg₂ (· - ·) (segSum_rowsq_apply x0 x1 n) ?_
  refine (mulf_apply _ _ _).trans ?_
  exact congrArg₂ (· * ·) (meanVec_apply x0 x1 n) (segSum_rowsum_apply x0 x1 n)

/-! ## The two per-edge columns -/

/-- A per-node vector read at every edge's row node. -/
theorem atRow_apply (v : FVec Ideal S50000 .f32) (x1 : ETab) (e : Fin 1250000) :
    atRow (F := Ideal) v x1 (ix1 e) = v (ix1 (node (rowW x1 e))) := by
  unfold atRow
  rw [gatherNrm_apply, rowVec_apply]

/-- The reciprocal standard deviation of an edge's row node. -/
theorem invStd_apply (x0 : XTab) (x1 : ETab) (e : Fin 1250000) :
    invStd (F := Ideal) x0 x1 (ix1 e) = kStat1 x0 x1 e := by
  unfold invStd kStat1
  refine (hostRsqrt_apply _ _).trans ?_
  refine congrArg Ideal.rsqrt ?_
  refine (addf_apply _ _ _).trans ?_
  refine congrArg₂ (· + ·) ?_ ?_
  · rw [atRow_apply, varVec_apply]
  · exact (splat1250000_apply (constant (F := Ideal) S_ .f32 0x3727C5AC#32) (ix1 e)).trans lit_eps_apply

/-- Column 0 of the statistics: the mean of the edge's row node. -/
theorem stats_col0 (x0 : XTab) (x1 : ETab) (e : Fin 1250000) :
    stats (F := Ideal) x0 x1 (ix2 e (0 : Fin 2)) = kStat0 x0 x1 e := by
  unfold stats kStat0
  refine (Cert.ConcatCols.concatenate_cols_apply (a := 1) (b := 1) (t := 2) rfl
    (colF (F := Ideal) (atRow (F := Ideal) (meanVec (F := Ideal) x0 x1) x1)) (colF (F := Ideal) (invStd (F := Ideal) x0 x1))
    concatenates_S1250000x1_S1250000x1_S1250000x2_d1 e (0 : Fin 2)).trans ?_
  rw [dif_pos (show ((0 : Fin 2) : Nat) < 1 by decide)]
  refine (colF_apply _ e).trans ?_
  rw [atRow_apply, meanVec_apply]

/-- Column 1 of the statistics: the reciprocal standard deviation of the edge's row node. -/
theorem stats_col1 (x0 : XTab) (x1 : ETab) (e : Fin 1250000) :
    stats (F := Ideal) x0 x1 (ix2 e (1 : Fin 2)) = kStat1 x0 x1 e := by
  unfold stats
  refine (Cert.ConcatCols.concatenate_cols_apply (a := 1) (b := 1) (t := 2) rfl
    (colF (F := Ideal) (atRow (F := Ideal) (meanVec (F := Ideal) x0 x1) x1)) (colF (F := Ideal) (invStd (F := Ideal) x0 x1))
    concatenates_S1250000x1_S1250000x1_S1250000x2_d1 e (1 : Fin 2)).trans ?_
  rw [dif_neg (show ¬ ((1 : Fin 2) : Nat) < 1 by decide)]
  refine (colF_apply _ e).trans ?_
  exact invStd_apply x0 x1 e

end Cert.KernelIdeal.HostStats

end
-- ==== Proof.KernelBlocks.lean ====
import proofs.«157844_j10153302687998_1_alg».proof.Proof.Gen.KernelIdeal.Value
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The normalised and affinely mapped entry: the scale of the feature times the centred, rescaled gathered feature, plus
    the feature's shift; the centre and the rescaling factor are the edge's two statistics. -/
def affineNorm (gamma beta : S64.Idx → EReal) (xc : S1250000x64.Idx → EReal) (st : S1250000x2.Idx → EReal) :
    S1250000x64.Idx → EReal :=
  fun i => gamma (ix1 (i 1)) * ((xc i - st (ix2 (i 0) (0 : Fin 2))) * st (ix2 (i 0) (1 : Fin 2))) + beta (ix1 (i 1))

/-- What one grid point leaves in its output block, entry by entry: row `r` and feature `f` of the block read the
    gathered block at the same place, the two statistics of row `r`, and the scale and shift of feature `f`. -/
theorem block_apply (x0 : Vec Ideal S5000x64 .f32) (x1 : Vec Ideal S5000x2 .f32) (x2 x3 : Vec Ideal S64 .f32)
    (r : Fin 5000) (f : Fin 64) :
    out0_4 x0 x1 x2 x3 (ix2 r f)
      = x2 (ix1 f) * ((x0 (ix2 r f) - x1 (ix2 r (0 : Fin 2))) * x1 (ix2 r (1 : Fin 2))) + x3 (ix1 f) := by
  unfold out0_4
  refine (Value.canon4_eq _ _ _ _ _ (ix2 r f)).trans ?_
  have h0 : r0_3.idx (Value.ix4_0 (ix2 r f)) = ix1 f := by
    funext a; apply Fin.ext
    match a with
    | ⟨0, _⟩ => show 0 + 1 * f.val = f.val; omega
  have h1 : r0_0.idx (Value.ix4_1 (ix2 r f)) = ix2 r f := by
    funext a; apply Fin.ext
    match a with
    | ⟨0, _⟩ => show 0 + 1 * r.val = r.val; omega
    | ⟨1, _⟩ => show 0 + 1 * f.val = f.val; omega
  have h2 : r0_1.idx (Value.ix4_2 (ix2 r f)) = ix2 r (0 : Fin 2) := by
    funext a; apply Fin.ext
    match a with
    | ⟨0, _⟩ => show 0 + 1 * r.val = r.val; omega
    | ⟨1, _⟩ => show 0 + 1 * 0 = 0; omega
  have h3 : r0_2.idx (Value.ix4_3 (ix2 r f)) = ix2 r (1 : Fin 2) := by
    funext a; apply Fin.ext
    match a with
    | ⟨0, _⟩ => show 0 + 1 * r.val = r.val; omega
    | ⟨1, _⟩ => show 1 + 1 * 0 = 1; omega
  show x2 (r0_3.idx (Value.ix4_0 (ix2 r f))) * ((x0 (r0_0.idx (Value.ix4_1 (ix2 r f))) - x1 (r0_1.idx (Value.ix4_2 (ix2 r f)))) * x1 (r0_2.idx (Value.ix4_3 (ix2 r f)))) + x3 (r0_3.idx (Value.ix4_4 (ix2 r f))) = _
  rw [h0, h1, h2, h3]

/-- Where each window's block sits at grid point `t`, decided over the 250 points: the three row-blocked windows are at
    block row `t` and block column 0, the two whole vectors at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 1) = 0
    ∧ win0_4.index t (0 : Fin 2) = t.val ∧ win0_4.index t (1 : Fin 2) = 0 :=
  (by decide +kernel : ∀ t : Fin grid0.N, _)

/-- The gathered-feature block at point `t` is rows `5000 t … 5000 t + 4999` of the gathered array. -/
theorem xc_block_apply (c : Dev nD) (t : Fin cfg0.N) (r : Fin 5000) (f : Fin 64) (k : S1250000x64.Idx)
    (hk0 : (k 0).val = 5000 * t.val + r.val) (hk1 : (k 1).val = f.val) :
    (iblk m c 0 t : Vec Ideal S5000x64 .f32) (ix2 r f) = (V m c main_v65 : S1250000x64.Idx → EReal) k := by
  obtain ⟨e0, e1, -⟩ := idx_facts t
  unfold iblk
  rw [View.read_apply]
  show (V m c main_v65 : S1250000x64.Idx → EReal) _ = (V m c main_v65 : S1250000x64.Idx → EReal) _
  refine congrArg (V m c main_v65 : S1250000x64.Idx → EReal) ?_
  funext a; apply Fin.ext
  match a with
  | ⟨0, _⟩ => show win0_0.index t (0 : Fin 2) * 5000 + 1 * r.val = (k 0).val; rw [e0, hk0]; omega
  | ⟨1, _⟩ => show win0_0.index t (1 : Fin 2) * 64 + 1 * f.val = (k 1).val; rw [e1, hk1]; omega

/-- The statistics block at point `t` is rows `5000 t … 5000 t + 4999` of the statistics array, both columns. -/
theorem st_block_apply (c : Dev nD) (t : Fin cfg0.N) (r : Fin 5000) (s : Fin 2) (k : S1250000x2.Idx)
    (hk0 : (k 0).val = 5000 * t.val + r.val) (hk1 : (k 1).val = s.val) :
    (iblk m c 1 t : Vec Ideal S5000x2 .f32) (ix2 r s) = (V m c main_v58 : S1250000x2.Idx → EReal) k := by
  obtain ⟨-, -, e0, e1, -⟩ := idx_facts t
  unfold iblk
  rw [View.read_apply]
  show (V m c main_v58 : S1250000x2.Idx → EReal) _ = (V m c main_v58 : S1250000x2.Idx → EReal) _
  refine congrArg (V m c main_v58 : S1250000x2.Idx → EReal) ?_
  funext a; apply Fin.ext
  match a with
  | ⟨0, _⟩ => show win0_1.index t (0 : Fin 2) * 5000 + 1 * r.val = (k 0).val; rw [e0, hk0]; omega
  | ⟨1, _⟩ => show win0_1.index t (1 : Fin 2) * 2 + 1 * s.val = (k 1).val; rw [e1, hk1]; omega

/-- The scale's block at every point is the whole scale vector. -/
theorem gamma_block_apply (c : Dev nD) (t : Fin cfg0.N) (f : Fin 64) :
    (iblk m c 2 t : Vec Ideal S64 .f32) (ix1 f) = (V m c main_arg2 : S64.Idx → EReal) (ix1 f) := by
  obtain ⟨-, -, -, -, e0, -⟩ := idx_facts t
  unfold iblk
  rw [View.read_apply]
  show (V m c main_arg2 : S64.Idx → EReal) _ = (V m c main_arg2 : S64.Idx → EReal) _
  refine congrArg (V m c main_arg2 : S64.Idx → EReal) ?_
  funext a; apply Fin.ext
  match a with
  | ⟨0, _⟩ => show win0_2.index t (0 : Fin 1) * 64 + 1 * f.val = f.val; rw [e0]; omega

/-- The shift's block at every point is the whole shift vector. -/
theorem beta_block_apply (c : Dev nD) (t : Fin cfg0.N) (f : Fin 64) :
    (iblk m c 3 t : Vec Ideal S64 .f32) (ix1 f) = (V m c main_arg3 : S64.Idx → EReal) (ix1 f) := by
  obtain ⟨-, -, -, -, -, e0, -⟩ := idx_facts t
  unfold iblk
  rw [View.read_apply]
  show (V m c main_arg3 : S64.Idx → EReal) _ = (V m c main_arg3 : S64.Idx → EReal) _
  refine congrArg (V m c main_arg3 : S64.Idx → EReal) ?_
  funext a; apply Fin.ext
  match a with
  | ⟨0, _⟩ => show win0_3.index t (0 : Fin 1) * 64 + 1 * f.val = f.val; rw [e0]; omega

/-- The whole-array function at row `e`, feature `f`. -/
theorem affineNorm_apply (gamma beta : S64.Idx → EReal) (xc : S1250000x64.Idx → EReal) (st : S1250000x2.Idx → EReal)
    (e : Fin 1250000) (f : Fin 64) :
    affineNorm gamma beta xc st (ix2 e f)
      = gamma (ix1 f) * ((xc (ix2 e f) - st (ix2 e (0 : Fin 2))) * st (ix2 e (1 : Fin 2))) + beta (ix1 f) := rfl

/-- What point `t` leaves at row `r`, feature `f` of its output block is the whole-array function at row
    `5000 t + r`, feature `f`: every block is read where that row of its array sits. -/
theorem point_apply (c : Dev nD) (t : Fin cfg0.N) (r : Fin 5000) (f : Fin 64) (e : Fin 1250000)
    (he : e.val = 5000 * t.val + r.val) :
    out0_4 (iblk m c 0 t) (iblk m c 1 t) (iblk m c 2 t) (iblk m c 3 t) (ix2 r f)
      = affineNorm (V m c main_arg2) (V m c main_arg3) (V m c main_v65) (V m c main_v58) (ix2 e f) := by
  refine (block_apply (iblk m c 0 t) (iblk m c 1 t) (iblk m c 2 t) (iblk m c 3 t) r f).trans ?_
  refine Eq.trans ?_ (affineNorm_apply (V m c main_arg2) (V m c main_arg3) (V m c main_v65) (V m c main_v58) e f).symm
  rw [gamma_block_apply m c t f, beta_block_apply m c t f, xc_block_apply m c t r f (ix2 e f) he rfl,
    st_block_apply m c t r (0 : Fin 2) (ix2 e (0 : Fin 2)) he rfl, st_block_apply m c t r (1 : Fin 2) (ix2 e (1 : Fin 2)) he rfl]

/-- What point `t` writes back is block `t` of the whole-array function. -/
theorem flushed_eq (c : Dev nD) (t : Fin cfg0.N) :
    (dats m 0 c).flushed 4 t = ((cfg0.win 4).blk t).view.read (Elt Ideal)
      (affineNorm (V m c main_arg2) (V m c main_arg3) (V m c main_v65) (V m c main_v58)) := by
  rw [Value.flushed4]
  obtain ⟨-, -, -, -, -, -, e0, e1⟩ := idx_facts t
  funext j
  have hj0 : (j 0).val < 5000 := (j 0).isLt
  have hj1 : (j 1).val < 64 := (j 1).isLt
  have ht : t.val < 250 := t.isLt
  show out0_4 (iblk m c 0 t) (iblk m c 1 t) (iblk m c 2 t) (iblk m c 3 t) j
      = affineNorm (V m c main_arg2) (V m c main_arg3) (V m c main_v65) (V m c main_v58) (((cfg0.win 4).blk t).view.emb j)
  have hj : (j : S5000x64.Idx) = ix2 (⟨(j 0).val, hj0⟩ : Fin 5000) (⟨(j 1).val, hj1⟩ : Fin 64) := by
    funext a; match a with | ⟨0, _⟩ => rfl | ⟨1, _⟩ => rfl
  have hk : (((cfg0.win 4).blk t).view.emb j : S1250000x64.Idx)
      = ix2 (⟨5000 * t.val + (j 0).val, by omega⟩ : Fin 1250000) (⟨(j 1).val, hj1⟩ : Fin 64) := by
    funext a; apply Fin.ext
    match a with
    | ⟨0, _⟩ => show win0_4.index t (0 : Fin 2) * 5000 + 1 * (j 0).val = 5000 * t.val + (j 0).val; rw [e0]; omega
    | ⟨1, _⟩ => show win0_4.index t (1 : Fin 2) * 64 + 1 * (j 1).val = (j 1).val; rw [e1]; omega
  refine (congrArg (out0_4 (iblk m c 0 t) (iblk m c 1 t) (iblk m c 2 t) (iblk m c 3 t)) hj).trans ?_
  refine Eq.trans ?_ (congrArg (affineNorm (V m c main_arg2) (V m c main_arg3) (V m c main_v65) (V m c main_v58)) hk).symm
  exact point_apply m c t _ _ _ rfl

/-- An index of the output array is in point `t`'s block iff each coordinate is in the block's range on its axis. -/
theorem mem_blk (t : Fin cfg0.N) (i : S1250000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v66).slice (win0_4.rect t)).set ↔ _
  rw [View.set_slice_whole, Rect.mem_set_unit]
  exact Iff.rfl

/-- Row `r` of the output array lies in the block of point `r / 5000`: the 250 blocks of 5000 rows tile the array. -/
theorem cover (i : S1250000x64.Idx) :
    ∃ t : Fin cfg0.N, (cfg0.win 4).flush t = true ∧ i ∈ ((cfg0.win 4).blk t).view.set := by
  have hi0 : (i 0).val < 1250000 := (i 0).isLt
  have hi1 : (i 1).val < 64 := (i 1).isLt
  have hlt : (i 0).val / 5000 < cfg0.N := Nat.lt_of_lt_of_eq (by omega : (i 0).val / 5000 < 250) N_0.symm
  obtain ⟨-, -, -, -, -, -, e0, e1⟩ := idx_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hlt⟩ (1 : Fin 2) * 64 ≤ (i 1).val ∧ (i 1).val < win0_4.index ⟨(i 0).val / 5000, hlt⟩ (1 : Fin 2) * 64 + 64
    rw [e1]
    omega

/-- The output array after the run is the whole-array function of the arrays the region finds. -/
theorem final (c : Dev nD) :
    (dats m 0 c).arrAt 4 cfg0.N = affineNorm (V m c main_arg2) (V m c main_arg3) (V m c main_v65) (V m c main_v58) :=
  (dats m 0 c).arrAt_eq_of_cover 4 (affineNorm (V m c main_arg2) (V m c main_arg3) (V m c main_v65) (V m c main_v58))
    (fun t _ => flushed_eq m c t) cover

/-- The output array after the run, entry by entry: the scale and shift vectors are the launched ones (no host operation
    writes them before the region), the gathered features and the statistics are the arrays the region finds. -/
theorem final_apply (c : Dev nD) (e : Fin 1250000) (f : Fin 64) :
    ((dats m 0 c).arrAt 4 cfg0.N : S1250000x64.Idx → EReal) (ix2 e f)
      = (by exact m ((c : Thread nD τ).loc main_arg2) (ix1 f) : EReal)
          * (((by exact V m c main_v65 (ix2 e f) : EReal) - (by exact V m c main_v58 (ix2 e (0 : Fin 2)) : EReal))
              * (by exact V m c main_v58 (ix2 e (1 : Fin 2)) : EReal))
        + (by exact m ((c : Thread nD τ).loc main_arg3) (ix1 f) : EReal) := by
  refine (congrFun (final m c) (ix2 e f)).trans ?_
  refine (affineNorm_apply (V m c main_arg2) (V m c main_arg3) (V m c main_v65) (V m c main_v58) e f).trans ?_
  rw [V_main_arg2 m c, V_main_arg3 m c]

end Cert.KernelIdeal.Blocks

end
-- ==== Proof.lean ====
/-
  Neighbour normalisation on a graph: the kernel against its jnp reference, equal over the extended reals.

  Both programs gather, for each of 1250000 edges, the 64 features of the node its column word names, centre them by the
  mean and scale them by the reciprocal standard deviation of the node its row word names, and apply gamma and beta
  feature by feature. A node's mean and variance run over all its edges and all 64 features. The reference takes them
  feature by feature (scatter the gathered rows, divide by the clamped edge count, average the 64 columns; centre, square,
  and again); the kernel's host part takes them from two numbers per node, the sum of a node's features and of their
  squares, gathered and scattered as vectors, with the variance as the mean square less mean times sum; the kernel
  itself is the last affine step on blocks of 5000 edges.

  The proof: every entry of the kernel's result is gamma · kQ + beta and every entry of the reference's is
  gamma · rQ + beta, where kQ and rQ (Proof/Spec.lean) are the two normalised entries written on the extended reals exactly
  as the operations compute them; and kQ = rQ when the feature table is finite, which the precondition says. That last
  step is the only mathematics: with real entries both means are the grand total over 64 times the clamped count, and
  centring at that mean turns the centred squares into the mean square less mean times sum, because 64 · count · mean
  is the total (with no edge everything is zero; with one or more the clamped count is the count); and an edge that is
  added onto node n reads node n back when it gathers, its row word being in range. Dividing by a positive square root
  and multiplying by its reciprocal agree.
-/
import proofs.«157844_j10153302687998_1_alg».proof.Defs
import proofs.«157844_j10153302687998_1_alg».proof.Proof.Gen.Kernel
import proofs.«157844_j10153302687998_1_alg».proof.Proof.Gen.Kernel.Skeleton
import proofs.«157844_j10153302687998_1_alg».proof.Proof.Gen.Kernel.Launch
import proofs.«157844_j10153302687998_1_alg».proof.Proof.Gen.Kernel.Points
import proofs.«157844_j10153302687998_1_alg».proof.Proof.Gen.Kernel.Frame
import proofs.«157844_j10153302687998_1_alg».proof.Proof.Gen.KernelIdeal
import proofs.«157844_j10153302687998_1_alg».proof.Proof.Gen.KernelIdeal.Skeleton
import proofs.«157844_j10153302687998_1_alg».proof.Proof.Gen.KernelIdeal.Launch
import proofs.«157844_j10153302687998_1_alg».proof.Proof.Gen.KernelIdeal.Points
import proofs.«157844_j10153302687998_1_alg».proof.Proof.Gen.KernelIdeal.Frame
import proofs.«157844_j10153302687998_1_alg».proof.Proof.Gen.ReferenceIdeal
import proofs.«157844_j10153302687998_1_alg».proof.Proof.Gen.Pre_finite_inputs
import proofs.«157844_j10153302687998_1_alg».proof.Proof.Gen.KernelIdeal.Value
import proofs.«157844_j10153302687998_1_alg».proof.Proof.Gen.ReferenceIdeal.Run
import proofs.«157844_j10153302687998_1_alg».proof.Proof.Gen.ReferenceIdeal.Read
import proofs.«157844_j10153302687998_1_alg».proof.Proof.Spec
import proofs.«157844_j10153302687998_1_alg».proof.Proof.Lift
import proofs.«157844_j10153302687998_1_alg».proof.Proof.Finite
import proofs.«157844_j10153302687998_1_alg».proof.Proof.RefRead
import proofs.«157844_j10153302687998_1_alg».proof.Proof.KernelHostV
import proofs.«157844_j10153302687998_1_alg».proof.Proof.KernelHostXc
import proofs.«157844_j10153302687998_1_alg».proof.Proof.KernelHostStats
import proofs.«157844_j10153302687998_1_alg».proof.Proof.KernelBlocks
import Idealize.ShloMosaic.Adequacy
import Idealize.ShloMosaic.Init

noncomputable section

open Idealize.ShloMosaic Idealize.ShloMosaic.ValueIdx Idealize.SL.Sem Idealize.ShloMosaic.TcCoe

namespace Cert.Proof.Claims

open Cert.NbrNorm

/-- Entry (e, f) of the kernel's result array: gamma times the kernel-side normalised entry plus beta. The kernel writes
    gamma · ((xc − stat0) · stat1) + beta over the two arrays the host prepared, and those arrays are the gathered
    features and the two statistics columns. -/
theorem kernel_entry (m : (ℓ : Loc Cert.KernelIdeal.nD Cert.KernelIdeal.τ Cert.KernelIdeal.sig) → Buf (Elt Ideal) ℓ)
    (c : Dev Cert.KernelIdeal.nD) (e : Fin 1250000) (f : Fin 64) :
    (by exact (Cert.KernelIdeal.Gen.dats m 0 c).arrAt 4 Cert.KernelIdeal.cfg0.N (ix2 e f) : EReal)
      = (by exact m (c.tc.loc Cert.KernelIdeal.main_arg2) (ix1 f) : EReal)
          * kQ (m (c.tc.loc Cert.KernelIdeal.main_arg0)) (m (c.tc.loc Cert.KernelIdeal.main_arg1)) e f
        + (by exact m (c.tc.loc Cert.KernelIdeal.main_arg3) (ix1 f) : EReal) := by
  refine (Cert.KernelIdeal.Blocks.final_apply m c e f).trans ?_
  rw [Cert.KernelIdeal.Host.V_gathered, Cert.KernelIdeal.Host.V_stats,
    Cert.KernelIdeal.HostXc.gathered_apply, Cert.KernelIdeal.HostStats.stats_col0, Cert.KernelIdeal.HostStats.stats_col1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with gamma times a normalised entry plus beta at every index; the two normalised entries are one
    number because the feature table is finite under the precondition. -/
theorem algebraic : Cert.algebraic_KernelIdeal_ReferenceIdeal := by
  intro m ρ m' ρ' hpre hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2]
  funext i
  obtain ⟨e, f, rfl⟩ : ∃ (e : Fin 1250000) (f : Fin 64), i = ix2 e f := ⟨i 0, i 1, eq_ix2 i⟩
  rw [Cert.ReferenceIdeal.RefValue.ref_apply]
  refine Eq.trans ?_ (kernel_entry m c e f).symm
  rw [kQ_eq_rQ _ _ (fun j => real_of_pre _ _ _ _ (hpre c) j) e f]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
